-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1000 : Shape := ⟨2, ![262144, 1000]⟩
abbrev S262144 : Shape := ⟨1, ![262144]⟩
abbrev S_ : Shape := ⟨0, ![]⟩

class Facts : Prop where
  bcast_S_S262144x1000 : S_.BroadcastsInDim S262144x1000 (![] : Fin 0 → Fin S262144x1000.rank)
  reducesTo_S262144x1000_S_d0_1 : S262144x1000.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x1000 .f32) (main_arg1 : IVec S262144 32) (main_arg2 : IVec S262144 32) : IVec S_ 1 :=
  let main_v0 : FVec F S262144x1000 .f32 := Host.absf main_arg0
  let main_cst : FVec F S_ .f32 := constant S_ .f32 0x7F800000#32
  let main_v1 : FVec F S262144x1000 .f32 := broadcastInDim S262144x1000 ![] bcast_S_S262144x1000 main_cst
  let main_v2 : IVec S262144x1000 1 := cmpf .olt main_v0 main_v1
  let main_c : IVec S_ 1 := constantI S_ 1 1#1
  let main_v3 : IVec S_ 1 := (fun x v => Host.reduce IntOp.andi x v reducesTo_S262144x1000_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 1 := constantI S_ 1 1#1
  let main_v6 : IVec S_ 1 := (fun x v => Host.reduce IntOp.andi x v reducesTo_S262144_S_d0 h_S_) main_v5 main_c_1
  let main_v7 : IVec S_ 1 := andi main_v3 main_v6
  let main_c_2 : IVec S_ 32 := constantI S_ 32 1000#32
  let main_v8 : IVec S262144 32 := broadcastInDim S262144 ![] bcast_S_S262144 main_c_2
  let main_v9 : IVec S262144 1 := cmpi .slt main_arg1 main_v8
  let main_c_3 : IVec S_ 1 := constantI S_ 1 1#1
  let main_v10 : IVec S_ 1 := (fun x v => Host.reduce IntOp.andi x v reducesTo_S262144_S_d0 h_S_) main_v9 main_c_3
  let main_v11 : IVec S_ 1 := andi main_v7 main_v10
  main_v11
-- ==== Kernel.lean ====
abbrev S262144x1000 : Shape := ⟨2, ![262144, 1000]⟩
abbrev S262144 : Shape := ⟨1, ![262144]⟩
abbrev S262144x1 : Shape := ⟨2, ![262144, 1]⟩
abbrev S256x1x128 : Shape := ⟨3, ![256, 1, 128]⟩
abbrev S1024x1000 : Shape := ⟨2, ![1024, 1000]⟩
abbrev S1024x1 : Shape := ⟨2, ![1024, 1]⟩
abbrev S1x1x128 : Shape := ⟨3, ![1, 1, 128]⟩
abbrev S1024 : Shape := ⟨1, ![1024]⟩
abbrev S1 : Shape := ⟨1, ![1]⟩
abbrev S1x1 : Shape := ⟨2, ![1, 1]⟩
abbrev S1024x8 : Shape := ⟨2, ![1024, 8]⟩
abbrev S8 : Shape := ⟨1, ![8]⟩
abbrev S1x8 : Shape := ⟨2, ![1, 8]⟩
abbrev S1x111 : Shape := ⟨2, ![1, 111]⟩
abbrev S1x128 : Shape := ⟨2, ![1, 128]⟩
abbrev S256x128 : Shape := ⟨2, ![256, 128]⟩
abbrev S_ : Shape := ⟨0, ![]⟩
abbrev S128 : Shape := ⟨1, ![128]⟩

abbrev nBuf : Space → Nat
  | .hbm => 36
  | .vmem => 8
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S262144, .i32⟩
  | .hbm, ⟨3, _⟩ => ⟨S262144x1, .i32⟩
  | .hbm, ⟨4, _⟩ => ⟨S262144x1, .i32⟩
  | .hbm, ⟨5, _⟩ => ⟨S256x1x128, .f32⟩
  | .hbm, ⟨6, _⟩ => ⟨S256x128, .f32⟩
  | .hbm, ⟨7, _⟩ => ⟨S_, .f32⟩
  | .hbm, ⟨8, _⟩ => ⟨S128, .f32⟩
  | .hbm, ⟨9, _⟩ => ⟨S1, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1x1x128, .f32⟩
  | .local _ .vmem, ⟨7, _⟩ => ⟨S1x1x128, .f32⟩
  | _, _ => ⟨S262144x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144_S262144x1 : S262144.ShapeCasts S262144x1
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  reduces_S1024x1_S1 : S1024x1.Reduces [0] S1
  shapeCasts_S1_S1x1 : S1.ShapeCasts S1x1
  iota_S1024x8_d1_w32 : S1024x8.Iotas .tc 32 [1]
  broadcasts_S1024x1_S1024x8 : S1024x1.Broadcasts S1024x8
  natLt_1_32 : 1 < 32
  reduces_S1024x8_S8 : S1024x8.Reduces [0] S8
  shapeCasts_S8_S1x8 : S8.ShapeCasts S1x8
  concatenates_S1x1_S1x8_S1x8_S1x111_S1x128_d1 : Shape.Concatenates [S1x1, S1x8, S1x8, S1x111] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S256x1x128_S256x128 : S256x1x128.ShapeCasts S256x128
  reducesTo_S256x128_S128_d0 : S256x128.ReducesTo [0] S128
  h_S_ : 0 < S_.numel
  slices_S128_S1_0 : S128.Slices ![0] S1
  shapeCasts_S1_S_ : S1.ShapeCasts S_
  slices_S128_S8_1 : S128.Slices ![1] S8
  slices_S128_S8_9 : S128.Slices ![9] S8
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S262144x1000.size a
  hwx0_0 : ∀ i : grid0.Coords, EltTy.bits .f32 = 32 ∨ (Rect.block (s := S262144x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S262144x1.size a
  hwx0_2 : ∀ i : grid0.Coords, EltTy.bits .i32 = 32 ∨ (Rect.block (s := S262144x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S256x1x128.size a
  hwx0_3 : ∀ i : grid0.Coords, EltTy.bits .f32 = 32 ∨ (Rect.block (s := S256x1x128) S1x1x128.size (cc0_transform_3 i) (hinb0_3 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x1000 : Shape := ⟨2, ![262144, 1000]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S8 : Shape := ⟨1, ![8]⟩

abbrev nBuf : Space → Nat
  | .hbm => 78
  | .vmem => 0
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S262144, .i32⟩
  | .hbm, ⟨3, _⟩ => ⟨S_, .f32⟩
  | .hbm, ⟨4, _⟩ => ⟨S262144, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144x1, .f32⟩
  | .hbm, ⟨9, _⟩ => ⟨S262144x1000, .f32⟩
  | .hbm, ⟨10, _⟩ => ⟨S262144x1000, .f32⟩
  | .hbm, ⟨11, _⟩ => ⟨S262144x1000, .f32⟩
  | .hbm, ⟨12, _⟩ => ⟨S_, .f32⟩
  | .hbm, ⟨13, _⟩ => ⟨S262144, .f32⟩
  | .hbm, ⟨14, _⟩ => ⟨S262144x1, .f32⟩
  | .hbm, ⟨15, _⟩ => ⟨S262144x1, .f32⟩
  | .hbm, ⟨16, _⟩ => ⟨S262144x1000, .f32⟩
  | .hbm, ⟨17, _⟩ => ⟨S262144x1000, .f32⟩
  | .hbm, ⟨18, _⟩ => ⟨S262144x1, .i32⟩
  | .hbm, ⟨19, _⟩ => ⟨S_, .i32⟩
  | .hbm, ⟨20, _⟩ => ⟨S262144x1, .i32⟩
  | .hbm, ⟨21, _⟩ => ⟨S262144x1, .i1⟩
  | .hbm, ⟨22, _⟩ => ⟨S_, .i32⟩
  | .hbm, ⟨23, _⟩ => ⟨S262144x1, .i32⟩
  | .hbm, ⟨24, _⟩ => ⟨S262144x1, .i32⟩
  | .hbm, ⟨25, _⟩ => ⟨S262144x1, .i32⟩
  | .hbm, ⟨26, _⟩ => ⟨S262144x1x1, .i32⟩
  | .hbm, ⟨27, _⟩ => ⟨S1, .i32⟩
  | .hbm, ⟨28, _⟩ => ⟨S_, .i32⟩
  | .hbm, ⟨29, _⟩ => ⟨S262144x1x1, .i32⟩
  | .hbm, ⟨30, _⟩ => ⟨S262144x1x1, .i1⟩
  | .hbm, ⟨31, _⟩ => ⟨S1x1x1, .i32⟩
  | .hbm, ⟨32, _⟩ => ⟨S262144x1x1, .i32⟩
  | .hbm, ⟨33, _⟩ => ⟨S262144x1x1, .i1⟩
  | .hbm, ⟨34, _⟩ => ⟨S262144x1x1, .i1⟩
  | .hbm, ⟨35, _⟩ => ⟨S_, .i1⟩
  | .hbm, ⟨36, _⟩ => ⟨S262144x1, .i1⟩
  | .hbm, ⟨37, _⟩ => ⟨S262144x1, .f32⟩
  | .hbm, ⟨38, _⟩ => ⟨S_, .f32⟩
  | .hbm, ⟨39, _⟩ => ⟨S262144x1, .f32⟩
  | .hbm, ⟨40, _⟩ => ⟨S262144x1, .f32⟩
  | .hbm, ⟨41, _⟩ => ⟨S262144, .f32⟩
  | .hbm, ⟨42, _⟩ => ⟨S262144, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8, .f32⟩
  | .hbm, ⟨49, _⟩ => ⟨S262144x1, .i32⟩
  | .hbm, ⟨50, _⟩ => ⟨S8, .f32⟩
  | .hbm, ⟨51, _⟩ => ⟨S_, .f32⟩
  | .hbm, ⟨52, _⟩ => ⟨S262144, .f32⟩
  | .hbm, ⟨53, _⟩ => ⟨S_, .f32⟩
  | .hbm, ⟨54, _⟩ => ⟨S8, .f32⟩
  | .hbm, ⟨55, _⟩ => ⟨S262144x1, .i32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S262144x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_2 : Ref sig .tc := ⟨.hbm, 51, rfl⟩
abbrev main_v10 : Ref sig .tc := ⟨.hbm, 52, rfl⟩
abbrev main_cst_3 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst_4 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_5 : Ref sig .tc := ⟨.hbm, 61, rfl⟩
abbrev main_v17 : Ref sig .tc := ⟨.hbm, 62, rfl⟩
abbrev main_cst_6 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_cst_7 : Ref sig .tc := ⟨.hbm, 68, rfl⟩
abbrev main_v22 : Ref sig .tc := ⟨.hbm, 69, rfl⟩
abbrev main_cst_8 : Ref sig .tc := ⟨.hbm, 70, rfl⟩
abbrev main_v23 : Ref sig .tc := ⟨.hbm, 71, rfl⟩
abbrev main_cst_9 : Ref sig .tc := ⟨.hbm, 72, rfl⟩
abbrev main_v24 : Ref sig .tc := ⟨.hbm, 73, rfl⟩
abbrev main_v25 : Ref sig .tc := ⟨.hbm, 74, rfl⟩
abbrev main_cst_10 : Ref sig .tc := ⟨.hbm, 75, rfl⟩
abbrev main_v26 : Ref sig .tc := ⟨.hbm, 76, rfl⟩
abbrev main_v27 : Ref sig .tc := ⟨.hbm, 77, rfl⟩

abbrev nD : Nat := 1
abbrev τ : Topo := Topo.v7x

variable {F : FTy → Type} [FloatOps F]

class Facts₀ : Prop where
  reducesTo_S262144x1000_S262144_d1 : S262144x1000.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1000_0_1 : S262144x1.BroadcastsInDim S262144x1000 (![0, 1] : Fin 2 → Fin S262144x1000.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144_S_d0 : S262144.ReducesTo [0] S_
  bcast_S_S8 : S_.BroadcastsInDim S8 (![] : Fin 0 → Fin S8.rank)
  reducesTo_S8_S_d0 : S8.ReducesTo [0] S_
  gather_S262144x1000_S262144x1x1_S262144x1_n_1_0_0_1_2_11_wf : GatherDims.WF S262144x1000 S262144x1x1 S262144x1 [] [1] [0] [1] [0] 2 ![1, 1]
  scatter_S8_S262144x1_S262144_n_0_0_1_wf : ScatterDims.WF S8 S262144x1 S262144 [] [0] [0] 1

variable [Facts₀]

def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf
def scatter_S8_S262144x1_S262144_n_0_0_1 : ScatterDims S8 S262144x1 S262144 where
  updateWindowDims := []
  insertedWindowDims := [0]
  scatterDimsToOperandDims := [0]
  indexVectorDim := 1
  wf := scatter_S8_S262144x1_S262144_n_0_0_1_wf

class Facts : Prop extends Facts₀ where

variable [Facts]
-- ==== Proof.Spec.lean ====
/-
  Cross-entropy with a group-fairness penalty: the pure functions both programs compute, and the laws that join
  their two arrangements.

  For a row of logits f and a class number t, the sample's loss is logsumexp f - f t, written with the row's
  maximum M taken out: (M + log (sum of exp (f k - M))) - f t. One program picks f t by a one-hot mask and a
  sum over the classes, the other by indexing; one subtracts in the order (M + L) - f t, the other negates
  (f t - M) - L. Over real logits these agree. The result is the mean loss plus a tenth of the root of the
  variance (plus a small constant) of the eight groups' mean losses, each group's mean its summed loss over its count
  (at least one): that last stretch is literally the same chain of operations in both programs, and is kept here
  as ONE function of the total loss, the group sums and the group counts.
-/
import Idealize.ShloMosaic.PureOps.Ideal
import Idealize.ShloMosaic.PureOps.Ideal.Laws
import Idealize.ShloMosaic.Lib.IdealHost
import Idealize.ShloMosaic.Lib.StableHlo.Predicate

noncomputable section

namespace Cert.Fair

open Idealize.ShloMosaic

/-! ## The row maximum -/

/-- The f32 word of minus infinity denotes the bottom of the extended reals. -/
theorem negInf_f32 : Ideal.ofBits .f32 0xFF800000#32 = (⊥ : EReal) := by simp [Ideal.ofBits, Ideal.ieee]

/-- The largest entry of a row, folded from minus infinity. -/
def rowMax {n : ℕ} (f : Fin n → EReal) : EReal :=
  (Finset.univ : Finset (Fin n)).fold max (Ideal.ofBits .f32 0xFF800000#32) f

/-- Taking the maximum with minus infinity once more changes nothing. -/
theorem max_negInf_rowMax {n : ℕ} (f : Fin n → EReal) : max (Ideal.ofBits .f32 0xFF800000#32) (rowMax f) = rowMax f := by
  rw [negInf_f32]; exact max_eq_right bot_le

/-- A nonempty row of real numbers has a real maximum. -/
theorem rowMax_real {n : ℕ} (hn : 0 < n) (f : Fin n → EReal) (hf : ∀ k, ∃ r : ℝ, f k = (r : EReal)) :
    ∃ M : ℝ, rowMax f = (M : EReal) := by
  have hlt : rowMax f < ⊤ := by
    unfold rowMax
    rw [Finset.fold_max_lt]
    refine ⟨by rw [negInf_f32]; exact bot_lt_top, fun k _ => ?_⟩
    obtain ⟨r, hr⟩ := hf k
    rw [hr]; exact EReal.coe_lt_top r
  have hgt : ⊥ < rowMax f := by
    obtain ⟨r, hr⟩ := hf ⟨0, hn⟩
    refine lt_of_lt_of_le (EReal.bot_lt_coe r) ?_
    unfold rowMax
    rw [Finset.le_fold_max]
    exact Or.inr ⟨⟨0, hn⟩, Finset.mem_univ _, le_of_eq hr.symm⟩
  exact ⟨(rowMax f).toReal, (EReal.coe_toReal (ne_of_lt hlt) (ne_of_gt hgt)).symm⟩

/-! ## One sample's loss -/

/-- The cross-entropy of one sample: logsumexp f - f t, the row's maximum taken out of the exponentials, the
    target's logit picked by a one-hot mask over the class numbers (as 32-bit words). -/
def sampleLoss (f : Fin 1000 → EReal) (t : BitVec 32) : EReal :=
  (rowMax f + Ideal.log (∑ k : Fin 1000, Ideal.exp (f k - rowMax f)))
    - ∑ k : Fin 1000, (if BitVec.ofNat 32 k.val = t then f k else 0)

/-- A word that reads signed as a number in 0 … 999 is that number's word, and no other class number's. -/
theorem ofNat_eq_iff_of_range (t : BitVec 32) (h0 : 0 ≤ t.toInt) (h1 : t.toInt < 1000) (k : Fin 1000) :
    BitVec.ofNat 32 k.val = t ↔ k.val = t.toInt.toNat := by
  have hk : k.val < 2 ^ 31 := lt_trans k.isLt (by norm_num)
  constructor
  · intro h
    have : t.toInt = (k.val : ℤ) := by rw [← h]; exact StableHlo.Predicate.toInt_ofNat_small k.val hk
    omega
  · intro h
    apply BitVec.eq_of_toInt_eq
    rw [StableHlo.Predicate.toInt_ofNat_small k.val hk]
    omega

/-- Over a target in range the one-hot sum is the row's entry at the target. -/
theorem sum_onehot (f : Fin 1000 → EReal) (t : BitVec 32) (h0 : 0 ≤ t.toInt) (h1 : t.toInt < 1000) :
    ∑ k : Fin 1000, (if BitVec.ofNat 32 k.val = t then f k else 0) = f ⟨t.toInt.toNat, by omega⟩ := by
  rw [Finset.sum_eq_single (⟨t.toInt.toNat, by omega⟩ : Fin 1000)]
  · rw [if_pos ((ofNat_eq_iff_of_range t h0 h1 _).2 rfl)]
  · intro k _ hk
    rw [if_neg]
    intro h
    exact hk (Fin.ext ((ofNat_eq_iff_of_range t h0 h1 k).1 h))
  · intro h; exact absurd (Finset.mem_univ _) h

/-- The two orders of subtraction: for a real logit a and a real maximum M, whatever the logarithm L is,
    -((a - M) - L) = (M + L) - a. -/
theorem neg_sub_sub (a M : ℝ) (L : EReal) : -(((a : EReal) - (M : EReal)) - L) = ((M : EReal) + L) - (a : EReal) := by
  induction L using EReal.rec with
  | bot =>
    rw [← EReal.coe_sub, EReal.coe_sub_bot, EReal.neg_top, EReal.add_bot, EReal.bot_sub]
  | coe l =>
    rw [← EReal.coe_sub, ← EReal.coe_sub, ← EReal.coe_neg, ← EReal.coe_add, ← EReal.coe_sub]
    congr 1; ring
  | top =>
    rw [← EReal.coe_sub, EReal.sub_top, EReal.neg_bot, EReal.coe_add_top, EReal.top_sub_coe]

/-- The indexing arrangement of a sample's loss is the one-hot arrangement: over a row of real logits and a target
    in range, negating (f t - M') - log (0 + sum of exp (f k - M')), with M' the maximum of minus infinity and the
    row's maximum, gives sampleLoss f t. -/
theorem sampleLoss_of_index (f : Fin 1000 → EReal) (hf : ∀ k, ∃ r : ℝ, f k = (r : EReal)) (t : BitVec 32)
    (h0 : 0 ≤ t.toInt) (h1 : t.toInt < 1000) (k0 : Fin 1000) (hk0 : k0.val = t.toInt.toNat) :
    -((f k0 - max (Ideal.ofBits .f32 0xFF800000#32) (rowMax f))
        - Ideal.log (Ideal.ofBits .f32 0x00000000#32
            + ∑ k : Fin 1000, Ideal.exp (f k - max (Ideal.ofBits .f32 0xFF800000#32) (rowMax f))))
      = sampleLoss f t := by
  unfold sampleLoss
  rw [max_negInf_rowMax, Ideal.ofBits_zero_f32, zero_add, sum_onehot f t h0 h1]
  obtain ⟨M, hM⟩ := rowMax_real (by norm_num) f hf
  have hk : k0 = ⟨t.toInt.toNat, by omega⟩ := Fin.ext hk0
  obtain ⟨a, ha⟩ := hf k0
  rw [← hk, hM, ha]
  exact neg_sub_sub a M _

/-! ## Group membership -/

/-- A group number j < 8 as a word equals a sample's group word exactly when the word reads signed as j. -/
theorem group_word_iff (g : BitVec 32) (j : Fin 8) : BitVec.ofNat 32 j.val = g ↔ g.toInt = (j.val : ℤ) := by
  have hj : j.val < 2 ^ 31 := lt_trans j.isLt (by norm_num)
  constructor
  · intro h; rw [← h]; exact StableHlo.Predicate.toInt_ofNat_small j.val hj
  · intro h
    apply BitVec.eq_of_toInt_eq
    rw [StableHlo.Predicate.toInt_ofNat_small j.val hj, h]

/-- A one-bit flag widened to 32 bits and read as a signed number, as an extended real: one or zero. -/
theorem flag_value (b : BitVec 1) : (((b.setWidth 32).toInt : ℝ) : EReal) = if b = 1#1 then 1 else 0 := by
  have h : b = 0#1 ∨ b = 1#1 := by
    have := b.isLt
    rcases (by omega : b.toNat = 0 ∨ b.toNat = 1) with h | h
    · left; exact BitVec.eq_of_toNat_eq h
    · right; exact BitVec.eq_of_toNat_eq h
  rcases h with rfl | rfl
  · rw [if_neg (by decide)]; norm_num
  · rw [if_pos rfl]; norm_num

/-! ## Rows by tiles -/

/-- A sum over the 262144 rows, regrouped as 256 tiles of 1024 rows. -/
theorem sum_tiles (F : ℕ → EReal) :
    ∑ i : Fin 262144, F i.val = ∑ t : Fin 256, ∑ r : Fin 1024, F (1024 * t.val + r.val) := by
  rw [← Fintype.sum_prod_type']
  refine (Fintype.sum_equiv (finProdFinEquiv (m := 256) (n := 1024)) _ _ fun p => ?_).symm
  show F (1024 * p.1.val + p.2.val) = F (p.2.val + 1024 * p.1.val)
  rw [Nat.add_comm]

/-! ## The shared last stretch -/

abbrev V8 : Shape := ⟨1, ![8]⟩
abbrev V0 : Shape := ⟨0, ![]⟩

variable {F : FTy → Type} [FloatOps F]

/-- From the total loss ls, the eight group sums gs and the eight group counts gc: the mean loss plus a tenth
    of sqrt (variance + 1e-8) of the group means gs / max gc 1, the variance the mean squared deviation from
    their mean. The shape relations its operations take are passed in, so that either program's own can be. -/
def tail (hb : V0.BroadcastsInDim V8 (![] : Fin 0 → Fin V8.rank)) (hr : V8.ReducesTo [0] V0) (h0 : 0 < V0.numel)
    (ls : FVec F V0 .f32) (gs gc : FVec F V8 .f32) : FVec F V0 .f32 :=
  let means : FVec F V8 .f32 := Host.divf gs (maximumf gc (broadcastInDim V8 ![] hb (constant V0 .f32 0x3F800000#32)))
  let mom : FVec F V0 .f32 := Host.divf (Host.reduceAdd means (constant V0 .f32 0x00000000#32) hr h0) (constant V0 .f32 0x41000000#32)
  let dev : FVec F V8 .f32 := subf means (broadcastInDim V8 ![] hb mom)
  let var : FVec F V0 .f32 := Host.divf (Host.reduceAdd (mulf dev dev) (constant V0 .f32 0x00000000#32) hr h0) (constant V0 .f32 0x41000000#32)
  addf (Host.divf ls (constant V0 .f32 0x48800000#32))
    (mulf (constant V0 .f32 0x3DCCCCCD#32) (Host.sqrt (addf var (constant V0 .f32 0x322BCC77#32))))

end Cert.Fair

end
-- ==== Proof.PreFacts.lean ====
import proofs.«405981_j77558519431603_3_alg».proof.Pre_finite_inputs
import Idealize.ShloMosaic.Lib.ReduceAll
import Idealize.ShloMosaic.Lib.ValueIdx
import Idealize.ShloMosaic.Lib.IdealHost
import Idealize.ShloMosaic.PureOps.Ideal

/-!
# What the precondition says of the inputs

The precondition is the one-bit scalar
`(all |x| < +∞) ∧ (all 0 ≤ t) ∧ (all t < 1000)`, the comparisons on `t` signed, each `all` a
reduction by `and` from the bit 1. Stated to be 1, it gives: every logit is a real number (neither
infinity), and every target, read signed, lies in `[0, 1000)`.
-/

noncomputable section

namespace Cert.PreFacts

open Idealize.ShloMosaic Cert.Pre_finite_inputs

variable [Cert.Pre_finite_inputs.Facts]

/-- A rank-0 shape has exactly one index. -/
instance subsingleton_S_Idx : Subsingleton S_.Idx := ⟨fun a b => funext fun d => d.elim0⟩

/-- An extended real whose absolute value `max v (-v)` lies strictly below the f32 pattern of `+∞` is a real
    number: at `⊤` and at `⊥` that maximum is `⊤`, which is not below `⊤`. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- The precondition's three conjuncts, each read at every index: the comparison bit there is 1. -/
theorem conjuncts (x : FVec Ideal S262144x1000 .f32) (t g : IVec S262144 32)
    (h : Cert.Pre_finite_inputs.fn (F := Ideal) x t g = fun _ => 1#1) :
    (∀ i : S262144x1000.Idx,
        Ideal.cmp .olt (max (x i) (-(x i))) (Ideal.ofBits .f32 0x7F800000#32) = 1#1)
      ∧ (∀ p : S262144.Idx, IntOp.cmpi .sge (t p) 0#32 = 1#1)
      ∧ (∀ p : S262144.Idx, IntOp.cmpi .slt (t p) 1000#32 = 1#1) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun p => ?_, fun p => ?_⟩
  · have e := Host.reduce_andi_all _ _ _ _ _ h1 i
    have b := ValueIdx.broadcastInDim_scalar_apply Facts.bcast_S_S262144x1000
      (constant (F := Ideal) S_ .f32 0x7F800000#32) i
    change Ideal.cmp .olt (max (x i) (-(x i))) (broadcastInDim S262144x1000 ![] _ (constant (F := Ideal) S_ .f32 0x7F800000#32) i) = 1#1 at e
    rw [b] at e
    exact e
  · have e := Host.reduce_andi_all _ _ _ _ _ h2 p
    have b := ValueIdx.broadcastInDim_scalar_apply Facts.bcast_S_S262144 (constantI S_ 32 0#32) p
    change IntOp.cmpi .sge (t p) (broadcastInDim S262144 ![] _ (constantI S_ 32 0#32) p) = 1#1 at e
    rw [b] at e
    exact e
  · have e := Host.reduce_andi_all _ _ _ _ _ h3 p
    have b := ValueIdx.broadcastInDim_scalar_apply Facts.bcast_S_S262144 (constantI S_ 32 1000#32) p
    change IntOp.cmpi .slt (t p) (broadcastInDim S262144 ![] _ (constantI S_ 32 1000#32) p) = 1#1 at e
    rw [b] at e
    exact e

/-- Under the precondition every logit is a real number. -/
theorem logits_real (x : FVec Ideal S262144x1000 .f32) (t g : IVec S262144 32)
    (h : Cert.Pre_finite_inputs.fn (F := Ideal) x t g = fun _ => 1#1) (i : S262144x1000.Idx) :
    ∃ r : ℝ, x i = (r : EReal) :=
  real_of_abs_lt_inf (x i) ((conjuncts x t g h).1 i)

/-- Under the precondition every target, read signed, is a class number: 0 ≤ t < 1000. -/
theorem targets_range (x : FVec Ideal S262144x1000 .f32) (t g : IVec S262144 32)
    (h : Cert.Pre_finite_inputs.fn (F := Ideal) x t g = fun _ => 1#1) (p : S262144.Idx) :
    0 ≤ (t p).toInt ∧ (t p).toInt < 1000 := by
  obtain ⟨-, hge, hlt⟩ := conjuncts x t g h
  have h0 : (0#32 : BitVec 32).toInt = 0 := by decide
  have h1000 : (1000#32 : BitVec 32).toInt = 1000 := by decide
  have a := IntOp.cmpi_sge.1 (hge p)
  have b := IntOp.cmpi_slt.1 (hlt p)
  rw [h0] at a
  rw [h1000] at b
  exact ⟨a, b⟩

end Cert.PreFacts

end
-- ==== Proof.KernelValue.lean ====
/-
  The kernel's run, read: what the statistics array holds after the grid, and the result after the host tail.

  Each of the 256 grid points loads one tile — 1024 rows of logits with their targets and group numbers — and stores
  one row of 128 statistics: the tile's summed loss, eight group sums, eight group counts, zeros. The store covers the
  point's whole output block, so the block after the body is the body's one payload of the three loaded blocks; point t
  writes it back to row t of the [256, 1, 128] statistics array, and the 256 rows tile that array. After the region
  the host adds the rows, column by column, slices out the total, the group sums and the group counts, and runs the
  last stretch shared with the reference on them.
-/
import proofs.«405981_j77558519431603_3_alg».proof.Proof.Gen.KernelIdeal.Frame
import proofs.«405981_j77558519431603_3_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store covers the output block: what it leaves is its payload of the three loaded blocks. -/
theorem out_eq (x0 : Vec F S1024x1000 .f32) (x1 x2 : Vec F S1024x1 .i32) : out0_3 x0 x1 x2 = k0_pay1 x0 x1 x2 := by
  unfold out0_3
  rw [View.canon_unit_zero hz3]
  simp only [View.ld_unit_zero (S := S1024x1000) hz2, View.ld_unit_zero (S := S1024x1) hz2]

/-- The grid point that writes row (j 0) of the statistics array. -/
def tileOf (j : S256x1x128.Idx) : Fin cfg0.N :=
  ⟨(j 0).val, by have h : (j 0).val < 256 := (j 0).isLt; rw [show cfg0.N = 256 from N_0]; exact h⟩

/-- Tile t's block of logits, of targets and of group numbers, each at its literal type. -/
abbrev xblk (c : Dev nD) (t : Fin cfg0.N) : Vec F S1024x1000 .f32 := iblk m c 0 t
abbrev tblk (c : Dev nD) (t : Fin cfg0.N) : Vec F S1024x1 .i32 := iblk m c 1 t
abbrev gblk (c : Dev nD) (t : Fin cfg0.N) : Vec F S1024x1 .i32 := iblk m c 2 t

/-- The statistics array: row t is the body's payload of tile t's blocks. -/
def stats (c : Dev nD) : S256x1x128.Idx → Elt F .f32 := fun j =>
  k0_pay1 (xblk m c (tileOf j)) (tblk m c (tileOf j)) (gblk m c (tileOf j)) (ix3 (0 : Fin 1) (0 : Fin 1) (j 2 : Fin 128))

/-- The output window's block index at point t is (t, 0, 0). -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- What point t writes back is row t of the statistics array. -/
theorem flushed_eq (c : Dev nD) (t : Fin cfg0.N) :
    (dats m 0 c).flushed 3 t = ((cfg0.win 3).blk t).view.read (Elt F) (stats m c) := by
  show (cfg0.win 3).cut (grid0.coords t) ((dats m 0 c).after 3 t) = _
  rw [after0_3, out_eq]
  obtain ⟨e0, e1, e2⟩ := idx3 t
  funext y
  show k0_pay1 (iblk m c 0 t) (iblk m c 1 t) (iblk m c 2 t) y = stats m c (((cfg0.win 3).blk t).view.emb y)
  have h0 : (y 0).val < 1 := (y 0).isLt
  have h1 : (y 1).val < 1 := (y 1).isLt
  have h2 : (y 2).val < 128 := (y 2).isLt
  have ht : tileOf (((cfg0.win 3).blk t).view.emb y) = t := by
    apply Fin.ext
    show win0_3.index t (0 : Fin 3) * 1 + 1 * (y 0).val = t.val
    omega
  have hy : ix3 (0 : Fin 1) (0 : Fin 1) ((((cfg0.win 3).blk t).view.emb y) 2 : Fin 128) = y := by
    funext a; apply Fin.ext
    match a with
    | ⟨0, _⟩ => show 0 = (y 0).val; omega
    | ⟨1, _⟩ => show 0 = (y 1).val; omega
    | ⟨2, _⟩ => show win0_3.index t (2 : Fin 3) * 128 + 1 * (y 2).val = (y 2).val; omega
  unfold stats
  rw [ht]
  exact congrArg (k0_pay1 (xblk m c t) (tblk m c t) (gblk m c t)) hy.symm

/-- Every entry of the statistics array is in the block of the point that writes its row. -/
theorem cover (c : Dev nD) (i : S256x1x128.Idx) :
    ∃ t : Fin cfg0.N, (cfg0.win 3).flush t = true ∧ i ∈ ((cfg0.win 3).blk t).view.set := by
  refine ⟨tileOf i, flush0_3 _, ?_⟩
  show i ∈ ((View.whole main_v2).slice (win0_3.rect (tileOf i))).set
  rw [View.set_slice_whole, Rect.mem_set_unit]
  obtain ⟨e0, e1, e2⟩ := idx3 (tileOf i)
  have h0 : (i 0).val < 256 := (i 0).isLt
  have h1 : (i 1).val < 1 := (i 1).isLt
  have h2 : (i 2).val < 128 := (i 2).isLt
  have ht : (tileOf i).val = (i 0).val := rfl
  intro a
  match a with
  | ⟨0, _⟩ =>
    show win0_3.index (tileOf i) (0 : Fin 3) * 1 ≤ (i 0).val ∧ (i 0).val < win0_3.index (tileOf i) (0 : Fin 3) * 1 + 1
    omega
  | ⟨1, _⟩ =>
    show win0_3.index (tileOf i) (1 : Fin 3) * 1 ≤ (i 1).val ∧ (i 1).val < win0_3.index (tileOf i) (1 : Fin 3) * 1 + 1
    omega
  | ⟨2, _⟩ =>
    show win0_3.index (tileOf i) (2 : Fin 3) * 128 ≤ (i 2).val ∧ (i 2).val < win0_3.index (tileOf i) (2 : Fin 3) * 128 + 128
    omega

/-- After the grid the statistics array holds stats. -/
theorem final (c : Dev nD) : (dats m 0 c).arrAt 3 cfg0.N = stats m c :=
  (dats m 0 c).arrAt_eq_of_cover 3 (stats m c) (fun t _ => flushed_eq m c t) (cover c)

/-! ## The host tail -/

/-- The statistics added over the 256 rows, column by column. -/
def packed (K : (⟨S256x1x128, .f32⟩ : BufTy).Contents (Elt F)) : FVec F S128 .f32 :=
  Host.reduceAdd (shapeCast S256x128 K shapeCasts_S256x1x128_S256x128) (constant S_ .f32 0x00000000#32) reducesTo_S256x128_S128_d0 h_S_

/-- Column 0 of the sums, as a scalar: the total loss. -/
def totalOf (K : (⟨S256x1x128, .f32⟩ : BufTy).Contents (Elt F)) : FVec F S_ .f32 :=
  shapeCast S_ (extractStridedSlice S1 ![0] (packed K) slices_S128_S1_0) shapeCasts_S1_S_
/-- Columns 1 … 8: the group sums. -/
def gsumOf (K : (⟨S256x1x128, .f32⟩ : BufTy).Contents (Elt F)) : FVec F S8 .f32 :=
  extractStridedSlice S8 ![1] (packed K) slices_S128_S8_1
/-- Columns 9 … 16: the group counts. -/
def gcountOf (K : (⟨S256x1x128, .f32⟩ : BufTy).Contents (Elt F)) : FVec F S8 .f32 :=
  extractStridedSlice S8 ![9] (packed K) slices_S128_S8_9

/-- The kernel's result from the statistics array. -/
def resultOf (K : (⟨S256x1x128, .f32⟩ : BufTy).Contents (Elt F)) : FVec F S_ .f32 :=
  Cert.Fair.tail bcast_S_S8 reducesTo_S8_S_d0 h_S_ (totalOf K) (gsumOf K) (gcountOf K)

/-- The host operations after the region compute resultOf of the statistics array. -/
theorem tail_eq (c : Dev nD) :
    Pipeline.afterTail₀ cfgs (dats m) 0 (V0 m) [hostOps1] c main_v23 = resultOf (stats m c) := by
  have hK : Pipeline.withArrays spec0 c (V0 m c) (fun w => (dats m 0 c).arrAt w cfg0.N) (Proc.devRef .tc main_v2) = stats m c :=
    (Pipeline.withArrays_arr spec0 launch0.win.arr_inj c _ _ 3).trans (final m c)
  unfold Pipeline.afterTail₀
  show StableHlo.after hostOps1 _ (Proc.devRef .tc main_v23) = _
  after_results_simp
  rw [hK]
  rfl

/-- The run, read: the result at resultOf of the statistics array, the arguments unchanged. -/
theorem run : θ_run defs (onTc (τ := τ) (main (F := F))) ⟨m, fun _ => 0, ρ⟩ fun r => ∀ c : Dev nD,
      r.2.mem ((c.tc : Thread nD τ).loc main_v23) = resultOf (stats m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.KernelBlocks.lean ====
/-
  The tiles' blocks as rows of the arguments.

  Grid point t fetches block (t, 0) of each input window: rows 1024 t … 1024 t + 1023 of the logits, and of the
  targets and group numbers kept as [262144, 1] columns, which the host makes from the two integer arguments by a
  reshape before the region. So entry (r, k) of tile t's logits block is the logits' entry (1024 t + r, k), and entry
  (r, 0) of its targets (group) column is the targets' (group numbers') entry 1024 t + r.
-/
import proofs.«405981_j77558519431603_3_alg».proof.Proof.KernelValue

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable {F : FTy → Type} [FloatOps F]
variable (m : (ℓ : Loc nD τ sig) → Buf (Elt F) ℓ)

/-- The input windows' block index at point t is (t, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- The targets column the region finds is the targets argument reshaped. -/
theorem V_targets (c : Dev nD) : (V m c main_v0 : S262144x1.Idx → Elt F .i32)
    = shapeCast S262144x1 (m ((c : Thread nD τ).loc main_arg1)) shapeCasts_S262144_S262144x1 := by
  show StableHlo.after hostOps0 (fun b => m (c, b)) (Proc.devRef .tc main_v0) = _
  after_results
  rfl

/-- The group-numbers column the region finds is the group-numbers argument reshaped. -/
theorem V_groups (c : Dev nD) : (V m c main_v1 : S262144x1.Idx → Elt F .i32)
    = shapeCast S262144x1 (m ((c : Thread nD τ).loc main_arg2)) shapeCasts_S262144_S262144x1 := by
  show StableHlo.after hostOps0 (fun b => m (c, b)) (Proc.devRef .tc main_v1) = _
  after_results
  rfl

/-- Entry (r, k) of tile t's logits block is the logits' entry (1024 t + r, k). -/
theorem xblk_apply (c : Dev nD) (t : Fin cfg0.N) (r : Fin 1024) (k : Fin 1000) (i : Fin 262144) (hi : i.val = 1024 * t.val + r.val) :
    xblk m c t (ix2 r k) = (m ((c : Thread nD τ).loc main_arg0) : S262144x1000.Idx → Elt F .f32) (ix2 i k) := by
  obtain ⟨e0, e1, -, -, -, -⟩ := idx_in t
  show iblk m c 0 t (ix2 r k) = _
  unfold iblk
  rw [View.read_apply]
  show V m c main_arg0 _ = _
  rw [V_main_arg0]
  congr 1
  funext a
  apply Fin.ext
  match a with
  | ⟨0, _⟩ => show win0_0.index t (0 : Fin 2) * 1024 + 1 * r.val = i.val; omega
  | ⟨1, _⟩ => show win0_0.index t (1 : Fin 2) * 1000 + 1 * k.val = k.val; omega

/-- Entry (r, 0) of tile t's targets column is the targets' entry 1024 t + r. -/
theorem tblk_apply (c : Dev nD) (t : Fin cfg0.N) (r : Fin 1024) (i : Fin 262144) (hi : i.val = 1024 * t.val + r.val) :
    tblk m c t (ix2 r (0 : Fin 1)) = (m ((c : Thread nD τ).loc main_arg1) : S262144.Idx → Elt F .i32) (ix1 i) := by
  obtain ⟨-, -, e0, e1, -, -⟩ := idx_in t
  show iblk m c 1 t (ix2 r (0 : Fin 1)) = _
  unfold iblk
  rw [View.read_apply]
  show V m c main_v0 _ = _
  rw [V_targets]
  refine shapeCast_apply _ _ _ (ix1 i) ?_
  rw [Shape.rowMajor_val_one, Shape.rowMajor_val_two]
  show i.val = (win0_1.index t (0 : Fin 2) * 1024 + 1 * r.val) * 1 + (win0_1.index t (1 : Fin 2) * 1 + 1 * 0)
  omega

/-- Entry (r, 0) of tile t's group-numbers column is the group numbers' entry 1024 t + r. -/
theorem gblk_apply (c : Dev nD) (t : Fin cfg0.N) (r : Fin 1024) (i : Fin 262144) (hi : i.val = 1024 * t.val + r.val) :
    gblk m c t (ix2 r (0 : Fin 1)) = (m ((c : Thread nD τ).loc main_arg2) : S262144.Idx → Elt F .i32) (ix1 i) := by
  obtain ⟨-, -, -, -, e0, e1⟩ := idx_in t
  show iblk m c 2 t (ix2 r (0 : Fin 1)) = _
  unfold iblk
  rw [View.read_apply]
  show V m c main_v1 _ = _
  rw [V_groups]
  refine shapeCast_apply _ _ _ (ix1 i) ?_
  rw [Shape.rowMajor_val_one, Shape.rowMajor_val_two]
  show i.val = (win0_2.index t (0 : Fin 2) * 1024 + 1 * r.val) * 1 + (win0_2.index t (1 : Fin 2) * 1 + 1 * 0)
  omega

end Cert.KernelIdeal.Hand

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.KernelPay.lean ====
import proofs.«405981_j77558519431603_3_alg».proof.Proof.Gen.KernelIdeal.Skeleton
import proofs.«405981_j77558519431603_3_alg».proof.Proof.Spec
import proofs.«405981_j77558519431603_3_alg».proof.Proof.LibKeepdims
import Idealize.ShloMosaic.Lib.Pipeline.Value
import Idealize.ShloMosaic.Lib.ValueLayout
import Idealize.ShloMosaic.Lib.ValueIdx
import Idealize.ShloMosaic.Lib.Affine
import Idealize.ShloMosaic.PureOps.Ideal
import Idealize.ShloMosaic.PureOps.Ideal.Laws

/-!
# The body's one stored value, lane by lane

One tile is 1024 rows: a block of logits `[1024, 1000]`, a column of targets and a column of group words. The body
stores one row of 128 lanes: lane 0 the tile's summed loss, lanes 1 … 8 the eight groups' summed losses, lanes
9 … 16 the eight groups' row counts, the rest zero. The loss of a row is the sample loss of the specification:
the row's maximum M, the logarithm of the sum of the exponentials of the entries less M, and the target's entry
picked by a one-hot mask and a sum over the classes, combined as (M + log …) - picked. A group's sums go through
a flag matrix, one where the row's group word is the group's number and zero elsewhere: the flag times the row's
loss summed over the rows, and the flag itself summed over the rows.

The file first reads the generic operations at an index over variables (the four-piece row, the kept sums, the
row maximum and row sums as columns, the one-hot pick, the flag), then shows the stored value is assembled from a
loss column and a flag matrix with those readings, and last reads the three kinds of lanes.
-/

noncomputable section

namespace Cert.KernelPay

open Idealize.ShloMosaic Idealize.ShloMosaic.ValueIdx Cert.KernelIdeal Cert.KernelIdeal.Gen Cert.Fair

/-! ## The stored row: four pieces end to end along the lanes, under a leading unit axis -/

section Row
variable {α : Type} (tot : S1x1.Idx → α) (gs gc : S1x8.Idx → α) (z : S1x111.Idx → α)
  (hc : Shape.Concatenates [S1x1, S1x8, S1x8, S1x111] S1x128 1)

/-- Lane 0 of the row is the first piece's one entry. -/
theorem row_lane_total :
    concatenate S1x128 1 [⟨S1x1, tot⟩, ⟨S1x8, gs⟩, ⟨S1x8, gc⟩, ⟨S1x111, z⟩] hc (ix2 (0 : Fin 1) (⟨0, by norm_num⟩ : Fin 128))
      = tot (ix2 (0 : Fin 1) (0 : Fin 1)) :=
  concatenate_apply_piece (1 : Fin S1x128.rank) [⟨S1x1, tot⟩, ⟨S1x8, gs⟩, ⟨S1x8, gc⟩, ⟨S1x111, z⟩] hc _ 0 (by show (0 : ℕ) < 4; omega) S1x1 tot rfl rfl 0 rfl (ix2 (0 : Fin 1) (0 : Fin 1))
    (fun b hb => by
      match b, hb with
      | ⟨0, _⟩, _ => rfl
      | ⟨1, _⟩, hb => exact absurd rfl hb)
    rfl

/-- Lane 1 + j of the row, j below 8, is entry j of the second piece: one lane lies before it. -/
theorem row_lane_gsum (j : Fin 8) :
    concatenate S1x128 1 [⟨S1x1, tot⟩, ⟨S1x8, gs⟩, ⟨S1x8, gc⟩, ⟨S1x111, z⟩] hc (ix2 (0 : Fin 1) (⟨1 + j.val, by omega⟩ : Fin 128))
      = gs (ix2 (0 : Fin 1) j) :=
  concatenate_apply_piece (1 : Fin S1x128.rank) [⟨S1x1, tot⟩, ⟨S1x8, gs⟩, ⟨S1x8, gc⟩, ⟨S1x111, z⟩] hc _ 1 (by show (1 : ℕ) < 4; omega) S1x8 gs rfl rfl 1 rfl (ix2 (0 : Fin 1) j)
    (fun b hb => by
      match b, hb with
      | ⟨0, _⟩, _ => rfl
      | ⟨1, _⟩, hb => exact absurd rfl hb)
    rfl

/-- Lane 9 + j of the row, j below 8, is entry j of the third piece: 1 + 8 lanes lie before it. -/
theorem row_lane_gcount (j : Fin 8) :
    concatenate S1x128 1 [⟨S1x1, tot⟩, ⟨S1x8, gs⟩, ⟨S1x8, gc⟩, ⟨S1x111, z⟩] hc (ix2 (0 : Fin 1) (⟨9 + j.val, by omega⟩ : Fin 128))
      = gc (ix2 (0 : Fin 1) j) :=
  concatenate_apply_piece (1 : Fin S1x128.rank) [⟨S1x1, tot⟩, ⟨S1x8, gs⟩, ⟨S1x8, gc⟩, ⟨S1x111, z⟩] hc _ 2 (by show (2 : ℕ) < 4; omega) S1x8 gc rfl rfl 9 rfl (ix2 (0 : Fin 1) j)
    (fun b hb => by
      match b, hb with
      | ⟨0, _⟩, _ => rfl
      | ⟨1, _⟩, hb => exact absurd rfl hb)
    rfl

end Row

/-! ## Sums over the rows, kept as a one-row array -/

/-- A column summed over its 1024 rows and kept as a `[1, 1]` array: its one entry is the sum of the column. -/
theorem total_apply (c : FVec Ideal S1024x1 .f32) (hr : S1024x1.Reduces [0] S1) (hφ : FKind.Formats .f32)
    (hacc : (0x00000000#32 : BitVec 32) = 0x00000000#32) (hs : S1.ShapeCasts S1x1) :
    shapeCast S1x1 (multiReduction .add [0] S1 c 0x00000000#32 hr hφ hacc) hs (ix2 (0 : Fin 1) (0 : Fin 1))
      = ∑ r : Fin 1024, c (ix2 r (0 : Fin 1)) :=
  (Keepdims.shapeCast_a_a1_apply _ hs (0 : Fin 1) (0 : Fin 1)).trans (Keepdims.add_cols_f32 c hr hφ hacc (0 : Fin 1))

/-- A `[1024, 8]` array summed over its rows and kept as a `[1, 8]` array: entry j is the sum of column j. -/
theorem gcol_apply (X : FVec Ideal S1024x8 .f32) (hr : S1024x8.Reduces [0] S8) (hφ : FKind.Formats .f32)
    (hacc : (0x00000000#32 : BitVec 32) = 0x00000000#32) (hs : S8.ShapeCasts S1x8) (j : Fin 8) :
    shapeCast S1x8 (multiReduction .add [0] S8 X 0x00000000#32 hr hφ hacc) hs (ix2 (0 : Fin 1) j)
      = ∑ r : Fin 1024, X (ix2 r j) :=
  (shapeCast_a_1a_apply _ hs (0 : Fin 1) j).trans (Keepdims.add_cols_f32 X hr hφ hacc j)

/-! ## One row of the block: its maximum and its sums, as column entries -/

/-- The maximum over the classes, kept as a column: entry r is the row maximum of row r. -/
theorem maxCol_apply (x : FVec Ideal S1024x1000 .f32) (hr : S1024x1000.Reduces [1] S1024) (hφ : FKind.Formats .f32)
    (hacc : (0xFF800000#32 : BitVec 32) = 0xFF800000#32) (hs : S1024.ShapeCasts S1024x1) (r : Fin 1024) :
    shapeCast S1024x1 (multiReduction .maximumf [1] S1024 x 0xFF800000#32 hr hφ hacc) hs (ix2 r (0 : Fin 1))
      = rowMax (fun k : Fin 1000 => x (ix2 r k)) :=
  (Keepdims.shapeCast_a_a1_apply _ hs r (0 : Fin 1)).trans (Keepdims.max_rows_f32 x hr hφ hacc r)

/-- The sum over the classes, kept as a column: entry r is the sum of row r. -/
theorem sumCol_apply (x : FVec Ideal S1024x1000 .f32) (hr : S1024x1000.Reduces [1] S1024) (hφ : FKind.Formats .f32)
    (hacc : (0x00000000#32 : BitVec 32) = 0x00000000#32) (hs : S1024.ShapeCasts S1024x1) (r : Fin 1024) :
    shapeCast S1024x1 (multiReduction .add [1] S1024 x 0x00000000#32 hr hφ hacc) hs (ix2 r (0 : Fin 1))
      = ∑ k : Fin 1000, x (ix2 r k) :=
  (Keepdims.shapeCast_a_a1_apply _ hs r (0 : Fin 1)).trans (Keepdims.add_rows_f32 x hr hφ hacc r)

/-- A column of words recast to its own shape and broadcast along n columns reads, at (r, k), the column at r. -/
theorem wordCol_apply {n : ℕ} (t : IVec S1024x1 32) (hs : S1024x1.ShapeCasts S1024x1)
    (hb : S1024x1.Broadcasts ⟨2, ![1024, n]⟩) (r : Fin 1024) (k : Fin n) :
    broadcastTo ⟨2, ![1024, n]⟩ (shapeCast S1024x1 t hs) hb (ix2 r k) = t (ix2 r (0 : Fin 1)) :=
  (Keepdims.broadcastTo_a1_ab_apply _ hb r k).trans (congrFun (shapeCast_self t hs) _)

/-- The one-hot pick: the entry (r, k) where the class number k, as a word, is row r's target word, and the
    scalar zero elsewhere. -/
theorem onehot_apply (t : IVec S1024x1 32) (x : FVec Ideal S1024x1000 .f32) (hi : S1024x1000.Iotas .tc 32 [1])
    (hs : S1024x1.ShapeCasts S1024x1) (hb : S1024x1.Broadcasts S1024x1000) (r : Fin 1024) (k : Fin 1000) :
    select (cmpi .eq (iota .tc S1024x1000 32 [1] hi) (broadcastTo S1024x1000 (shapeCast S1024x1 t hs) hb)) x
        (broadcast S1024x1000 (Scalar.ofBits (F := Ideal) .f32 0x00000000#32)) (ix2 r k)
      = if BitVec.ofNat 32 k.val = t (ix2 r (0 : Fin 1)) then x (ix2 r k) else 0 := by
  have e1 : iota .tc S1024x1000 32 [1] hi (ix2 r k) = BitVec.ofNat 32 k.val :=
    iota_single_apply .tc S1024x1000 32 1 hi (ix2 r k)
  have e2 : broadcastTo S1024x1000 (shapeCast S1024x1 t hs) hb (ix2 r k) = t (ix2 r (0 : Fin 1)) :=
    wordCol_apply t hs hb r k
  show Scalar.select (IntOp.cmpi .eq (iota .tc S1024x1000 32 [1] hi (ix2 r k))
      (broadcastTo S1024x1000 (shapeCast S1024x1 t hs) hb (ix2 r k))) (x (ix2 r k)) (Ideal.ofBits .f32 0x00000000#32) = _
  rw [e1, e2, Ideal.ofBits_zero_f32]
  by_cases h : BitVec.ofNat 32 k.val = t (ix2 r (0 : Fin 1))
  · rw [if_pos h, IntOp.cmpi_eq.2 h]
    exact select_one _ _
  · rw [if_neg h, eq_zero_of_ne_one (fun h' => h (IntOp.cmpi_eq.1 h'))]
    exact select_zero _ _

/-- The flag matrix: at (r, j), one where the group number j, as a word, is row r's group word, zero elsewhere —
    the equality bit widened to 32 bits and converted as a signed number. -/
theorem flag_apply (g : IVec S1024x1 32) (hi : S1024x8.Iotas .tc 32 [1]) (hs : S1024x1.ShapeCasts S1024x1)
    (hb : S1024x1.Broadcasts S1024x8) (h132 : 1 < 32) (r : Fin 1024) (j : Fin 8) :
    (sitofp .f32 (extui 32 (cmpi .eq (iota .tc S1024x8 32 [1] hi) (broadcastTo S1024x8 (shapeCast S1024x1 g hs) hb)) h132)
        : FVec Ideal S1024x8 .f32) (ix2 r j)
      = if BitVec.ofNat 32 j.val = g (ix2 r (0 : Fin 1)) then (1 : EReal) else 0 := by
  have e1 : iota .tc S1024x8 32 [1] hi (ix2 r j) = BitVec.ofNat 32 j.val :=
    iota_single_apply .tc S1024x8 32 1 hi (ix2 r j)
  have e2 : broadcastTo S1024x8 (shapeCast S1024x1 g hs) hb (ix2 r j) = g (ix2 r (0 : Fin 1)) :=
    wordCol_apply g hs hb r j
  show ((((IntOp.cmpi .eq (iota .tc S1024x8 32 [1] hi (ix2 r j))
      (broadcastTo S1024x8 (shapeCast S1024x1 g hs) hb (ix2 r j))).setWidth 32).toInt : ℝ) : EReal) = _
  rw [e1, e2, flag_value]
  by_cases h : BitVec.ofNat 32 j.val = g (ix2 r (0 : Fin 1))
  · rw [if_pos h, if_pos (IntOp.cmpi_eq.2 h)]
  · rw [if_neg h, if_neg (fun h' => h (IntOp.cmpi_eq.1 h'))]

/-- A difference of a sum with a logarithm in it, read at an index. -/
theorem lossCol_apply (M SE PK : FVec Ideal S1024x1 .f32) (i : S1024x1.Idx) :
    subf (addf M (log SE)) PK i = (M i + Ideal.log (SE i)) - PK i := rfl

/-! ## The stored value is assembled from a loss column and a flag matrix -/

variable (v0 : Vec Ideal S1024x1000 .f32) (v1 v3 : Vec Ideal S1024x1 .i32)

/-- The loss of row r of a tile: the sample loss of the block's row r at the targets column's entry r. -/
abbrev rowLoss (r : Fin 1024) : EReal := sampleLoss (fun k : Fin 1000 => v0 (ix2 r k)) (v1 (ix2 r (0 : Fin 1)))

/-- The body's stored value is the four-piece row built from ONE column `loss` and ONE matrix `flag`: the kept
    sum of `loss`, the kept column sums of `flag` times `loss` broadcast along the groups, the kept column sums of
    `flag`, and zeros; `loss` reads at row r the row's loss, `flag` at (r, j) whether row r is in group j. -/
theorem pay_struct :
    ∃ (loss : FVec Ideal S1024x1 .f32) (flag : FVec Ideal S1024x8 .f32),
      (∀ r : Fin 1024, loss (ix2 r (0 : Fin 1)) = rowLoss v0 v1 r)
      ∧ (∀ (r : Fin 1024) (j : Fin 8),
          flag (ix2 r j) = if BitVec.ofNat 32 j.val = v3 (ix2 r (0 : Fin 1)) then (1 : EReal) else 0)
      ∧ k0_pay1 (F := Ideal) v0 v1 v3
          = shapeCast S1x1x128
              (concatenate S1x128 1
                [⟨S1x1, shapeCast S1x1 (multiReduction (F := Ideal) .add [0] S1 loss 0x00000000#32
                    reduces_S1024x1_S1 (.inl rfl) rfl) shapeCasts_S1_S1x1⟩,
                 ⟨S1x8, shapeCast S1x8 (multiReduction (F := Ideal) .add [0] S8
                    (mulf flag (broadcastTo S1024x8 loss broadcasts_S1024x1_S1024x8)) 0x00000000#32
                    reduces_S1024x8_S8 (.inl rfl) rfl) shapeCasts_S8_S1x8⟩,
                 ⟨S1x8, shapeCast S1x8 (multiReduction (F := Ideal) .add [0] S8 flag 0x00000000#32
                    reduces_S1024x8_S8 (.inl rfl) rfl) shapeCasts_S8_S1x8⟩,
                 ⟨S1x111, broadcast S1x111 (Scalar.ofBits (F := Ideal) .f32 0x00000000#32)⟩]
                concatenates_S1x1_S1x8_S1x8_S1x111_S1x128_d1)
              shapeCasts_S1x128_S1x1x128 := by
  refine ⟨_, _, ?_, ?_, rfl⟩
  · intro r
    refine (lossCol_apply _ _ _ (ix2 r (0 : Fin 1))).trans ?_
    show _ = (rowMax (fun k : Fin 1000 => v0 (ix2 r k))
        + Ideal.log (∑ k : Fin 1000, Ideal.exp (v0 (ix2 r k) - rowMax (fun k : Fin 1000 => v0 (ix2 r k)))))
        - ∑ k : Fin 1000, (if BitVec.ofNat 32 k.val = v1 (ix2 r (0 : Fin 1)) then v0 (ix2 r k) else 0)
    refine congrArg₂ (fun a b : EReal => a - b)
      (congrArg₂ (fun a b : EReal => a + b) (maxCol_apply v0 _ _ _ _ r) (congrArg Ideal.log ?_)) ?_
    · refine (sumCol_apply _ _ _ _ _ r).trans (Finset.sum_congr rfl fun k _ => ?_)
      show Ideal.exp (v0 (ix2 r k) - broadcastTo S1024x1000 _ _ (ix2 r k)) = _
      refine congrArg (fun m : EReal => Ideal.exp (v0 (ix2 r k) - m)) ?_
      exact (Keepdims.broadcastTo_a1_ab_apply _ _ r k).trans (maxCol_apply v0 _ _ _ _ r)
    · refine (sumCol_apply _ _ _ _ _ r).trans (Finset.sum_congr rfl fun k _ => ?_)
      exact onehot_apply v1 v0 _ _ _ r k
  · intro r j
    exact flag_apply v3 _ _ _ _ r j

/-! ## The lanes -/

/-- Lane 0: the tile's summed loss. -/
theorem pay_total :
    k0_pay1 (F := Ideal) v0 v1 v3 (ix3 (0 : Fin 1) (0 : Fin 1) (⟨0, by norm_num⟩ : Fin 128))
      = ∑ r : Fin 1024, rowLoss v0 v1 r := by
  obtain ⟨loss, flag, hl, -, e⟩ := pay_struct v0 v1 v3
  rw [e]
  refine (shapeCast_ab_1ab_apply _ _ (0 : Fin 1) (0 : Fin 1) _).trans ?_
  refine (row_lane_total _ _ _ _ _).trans ?_
  refine (total_apply loss _ _ _ _).trans ?_
  exact Finset.sum_congr rfl fun r _ => hl r

/-- Lanes 1 … 8: group j's summed loss over the tile's rows whose group word is j's. -/
theorem pay_gsum (j : Fin 8) :
    k0_pay1 (F := Ideal) v0 v1 v3 (ix3 (0 : Fin 1) (0 : Fin 1) (⟨1 + j.val, by omega⟩ : Fin 128))
      = ∑ r : Fin 1024, if BitVec.ofNat 32 j.val = v3 (ix2 r (0 : Fin 1)) then rowLoss v0 v1 r else 0 := by
  obtain ⟨loss, flag, hl, hf, e⟩ := pay_struct v0 v1 v3
  rw [e]
  refine (shapeCast_ab_1ab_apply _ _ (0 : Fin 1) (0 : Fin 1) _).trans ?_
  refine (row_lane_gsum _ _ _ _ _ j).trans ?_
  refine (gcol_apply _ _ _ _ _ j).trans ?_
  refine Finset.sum_congr rfl fun r _ => ?_
  show flag (ix2 r j) * broadcastTo S1024x8 loss broadcasts_S1024x1_S1024x8 (ix2 r j) = _
  rw [hf r j, Keepdims.broadcastTo_a1_ab_apply loss broadcasts_S1024x1_S1024x8 r j, hl r]
  by_cases h : BitVec.ofNat 32 j.val = v3 (ix2 r (0 : Fin 1))
  · rw [if_pos h, if_pos h, one_mul]
  · rw [if_neg h, if_neg h, zero_mul]

/-- Lanes 9 … 16: how many of the tile's rows have group word j. -/
theorem pay_gcount (j : Fin 8) :
    k0_pay1 (F := Ideal) v0 v1 v3 (ix3 (0 : Fin 1) (0 : Fin 1) (⟨9 + j.val, by omega⟩ : Fin 128))
      = ∑ r : Fin 1024, if BitVec.ofNat 32 j.val = v3 (ix2 r (0 : Fin 1)) then (1 : EReal) else 0 := by
  obtain ⟨loss, flag, -, hf, e⟩ := pay_struct v0 v1 v3
  rw [e]
  refine (shapeCast_ab_1ab_apply _ _ (0 : Fin 1) (0 : Fin 1) _).trans ?_
  refine (row_lane_gcount _ _ _ _ _ j).trans ?_
  refine (gcol_apply _ _ _ _ _ j).trans ?_
  exact Finset.sum_congr rfl fun r _ => hf r j

end Cert.KernelPay

end
-- ==== Proof.Bridge.lean ====
import proofs.«405981_j77558519431603_3_alg».proof.Proof.KernelBlocks
import proofs.«405981_j77558519431603_3_alg».proof.Proof.KernelPay
import proofs.«405981_j77558519431603_3_alg».proof.Proof.Spec
import Idealize.ShloMosaic.Lib.Pipeline.Value
import Idealize.ShloMosaic.Lib.ValueIdx
import Idealize.ShloMosaic.Lib.IdealHost
import Idealize.ShloMosaic.PureOps.Ideal.Laws

/-!
# From the statistics array to sums over all samples

The statistics array has one row of 128 lanes per tile; the host adds the 256 rows lane by lane, and reads lane 0
(the total loss), lanes 1 … 8 (the group sums) and lanes 9 … 16 (the group counts). Lane l of the added rows is the
sum over the tiles of the tile's lane l; a tile's lane is a sum over its 1024 rows; row r of tile t is sample
1024 t + r of the arguments; and a sum over tiles of sums over rows is the sum over all 262144 samples. Membership
of a row in group j, which the body tests by comparing words, is said here by the group word's signed reading.
-/

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.Fair

/-! ## The host's reading of the statistics array -/

/-- Lane l of the rows added up: the sum over the 256 tiles of the array's entry (t, 0, l). The initial value is the
    zero constant; the array is first viewed as [256, 128], where (t, l) is the entry (t, 0, l). -/
theorem packed_apply (K : S256x1x128.Idx → EReal) (l : Fin 128) :
    packed (F := Ideal) K (ix1 l) = ∑ t : Fin 256, K (ix3 t (0 : Fin 1) l) := by
  unfold packed
  refine (hostReduceAdd_apply _ _ reducesTo_S256x128_S128_d0 h_S_ (ix1 l)).trans ?_
  refine (Ideal.hostReduceAdd_single reducesTo_S256x128_S128_d0 (by decide) _ _ (ix1 l)).trans ?_
  rw [show constant (F := Ideal) S_ .f32 0x00000000#32 (Shape.Idx.first h_S_) = 0 from Ideal.ofBits_zero_f32, zero_add]
  refine Finset.sum_congr rfl fun t _ => ?_
  refine shapeCast_apply K shapeCasts_S256x1x128_S256x128 _ (ix3 t (0 : Fin 1) l) ?_
  rw [Shape.rowMajor_val_three, Shape.rowMajor_val_two]
  show (t.val * 1 + 0) * 128 + l.val = t.val * 128 + l.val
  omega

/-- The total: lane 0 of the added rows, as a scalar. -/
theorem totalOf_eq (K : S256x1x128.Idx → EReal) (j : S_.Idx) :
    totalOf (F := Ideal) K j = packed (F := Ideal) K (ix1 (⟨0, by norm_num⟩ : Fin 128)) := by
  unfold totalOf
  refine (shapeCast_apply _ shapeCasts_S1_S_ j (ix1 (0 : Fin 1)) ?_).trans ?_
  · rw [Shape.rowMajor_val_one]
    have h := (S_.rowMajor j).isLt
    have h1 : S_.numel = 1 := by decide
    show (0 : ℕ) = (S_.rowMajor j).val
    omega
  · exact extractStridedSlice_apply ![0] _ slices_S128_S1_0 (ix1 (0 : Fin 1)) (ix1 (⟨0, by norm_num⟩ : Fin 128))
      (fun a => by match a with | ⟨0, _⟩ => rfl)

/-- The group sums: lanes 1 … 8 of the added rows. -/
theorem gsumOf_eq (K : S256x1x128.Idx → EReal) (j : Fin 8) :
    gsumOf (F := Ideal) K (ix1 j) = packed (F := Ideal) K (ix1 (⟨1 + j.val, by omega⟩ : Fin 128)) := by
  unfold gsumOf
  exact extractStridedSlice_apply ![1] _ slices_S128_S8_1 (ix1 j) (ix1 (⟨1 + j.val, by omega⟩ : Fin 128))
    (fun a => by match a with | ⟨0, _⟩ => rfl)

/-- The group counts: lanes 9 … 16 of the added rows. -/
theorem gcountOf_eq (K : S256x1x128.Idx → EReal) (j : Fin 8) :
    gcountOf (F := Ideal) K (ix1 j) = packed (F := Ideal) K (ix1 (⟨9 + j.val, by omega⟩ : Fin 128)) := by
  unfold gcountOf
  exact extractStridedSlice_apply ![9] _ slices_S128_S8_9 (ix1 j) (ix1 (⟨9 + j.val, by omega⟩ : Fin 128))
    (fun a => by match a with | ⟨0, _⟩ => rfl)

/-! ## Rows by tiles -/

/-- Row r of tile t is sample 1024 t + r. -/
def sampleOf (t : Fin 256) (r : Fin 1024) : Fin 262144 := ⟨1024 * t.val + r.val, by omega⟩

/-- A sum over the 262144 samples, regrouped as 256 tiles of 1024 rows. -/
theorem sum_samples (G : Fin 262144 → EReal) : ∑ i : Fin 262144, G i = ∑ t : Fin 256, ∑ r : Fin 1024, G (sampleOf t r) := by
  have h := sum_tiles (fun n : ℕ => if h : n < 262144 then G ⟨n, h⟩ else 0)
  have hl : ∀ i : Fin 262144, (if h : i.val < 262144 then G ⟨i.val, h⟩ else 0) = G i := fun i => dif_pos i.isLt
  have hr : ∀ (t : Fin 256) (r : Fin 1024),
      (if h : 1024 * t.val + r.val < 262144 then G ⟨1024 * t.val + r.val, h⟩ else 0) = G (sampleOf t r) :=
    fun t r => dif_pos (sampleOf t r).isLt
  refine (Finset.sum_congr rfl fun i _ => (hl i).symm).trans (h.trans ?_)
  exact Finset.sum_congr rfl fun t _ => Finset.sum_congr rfl fun r _ => hr t r

variable (m : (ℓ : Loc nD τ sig) → Buf (Elt Ideal) ℓ) (c : Dev nD)

/-- The three arguments as arrays of extended reals and of 32-bit words. -/
abbrev X0 : S262144x1000.Idx → EReal := m ((c : Thread nD τ).loc main_arg0)
abbrev X1 : S262144.Idx → BitVec 32 := m ((c : Thread nD τ).loc main_arg1)
abbrev X2 : S262144.Idx → BitVec 32 := m ((c : Thread nD τ).loc main_arg2)

/-- Sample i's loss. -/
abbrev lossAt (i : Fin 262144) : EReal := sampleLoss (fun k : Fin 1000 => X0 m c (ix2 i k)) (X1 m c (ix1 i))

/-- Tile t, as a grid point. -/
def tile (t : Fin 256) : Fin cfg0.N := ⟨t.val, by rw [show cfg0.N = 256 from N_0]; exact t.isLt⟩

/-- Entry (t, 0, l) of the statistics array is lane l of the body's stored value on tile t's blocks. -/
theorem stats_apply (t : Fin 256) (l : Fin 128) :
    stats m c (ix3 t (0 : Fin 1) l)
      = k0_pay1 (F := Ideal) (xblk m c (tile t)) (tblk m c (tile t)) (gblk m c (tile t)) (ix3 (0 : Fin 1) (0 : Fin 1) l) := rfl

/-- The loss of row r of tile t is the loss of sample 1024 t + r. -/
theorem rowLoss_tile (t : Fin 256) (r : Fin 1024) :
    Cert.KernelPay.rowLoss (xblk m c (tile t)) (tblk m c (tile t)) r = lossAt m c (sampleOf t r) :=
  congrArg₂ sampleLoss (funext fun k => xblk_apply m c (tile t) r k (sampleOf t r) rfl)
    (tblk_apply m c (tile t) r (sampleOf t r) rfl)

/-- The group word of row r of tile t is the group word of sample 1024 t + r. -/
theorem group_tile (t : Fin 256) (r : Fin 1024) :
    gblk m c (tile t) (ix2 r (0 : Fin 1)) = X2 m c (ix1 (sampleOf t r)) :=
  gblk_apply m c (tile t) r (sampleOf t r) rfl

/-! ## The three readings -/

/-- The kernel's total loss is the sum of all samples' losses. -/
theorem total_apply (j : S_.Idx) : totalOf (stats m c) j = ∑ i : Fin 262144, lossAt m c i := by
  refine (totalOf_eq _ j).trans ((packed_apply _ _).trans ?_)
  refine (Finset.sum_congr rfl fun t _ => ?_).trans (sum_samples (lossAt m c)).symm
  refine ((stats_apply m c t _).trans (Cert.KernelPay.pay_total _ _ _)).trans ?_
  exact Finset.sum_congr rfl fun r _ => rowLoss_tile m c t r

/-- The kernel's sum for group j is the sum of the losses of the samples whose group word reads j. -/
theorem gsum_apply (j : Fin 8) :
    gsumOf (stats m c) (ix1 j)
      = ∑ i : Fin 262144, if (X2 m c (ix1 i)).toInt = (j.val : ℤ) then lossAt m c i else 0 := by
  refine (gsumOf_eq _ j).trans ((packed_apply _ _).trans ?_)
  refine (Finset.sum_congr rfl fun t _ => ?_).trans
    (sum_samples fun i => if (X2 m c (ix1 i)).toInt = (j.val : ℤ) then lossAt m c i else 0).symm
  refine ((stats_apply m c t _).trans (Cert.KernelPay.pay_gsum _ _ _ j)).trans ?_
  refine Finset.sum_congr rfl fun r _ => ?_
  rw [group_tile m c t r, rowLoss_tile m c t r]
  exact if_congr (group_word_iff _ j) rfl rfl

/-- The kernel's count for group j is the number of samples whose group word reads j. -/
theorem gcount_apply (j : Fin 8) :
    gcountOf (stats m c) (ix1 j)
      = ∑ i : Fin 262144, if (X2 m c (ix1 i)).toInt = (j.val : ℤ) then (1 : EReal) else 0 := by
  refine (gcountOf_eq _ j).trans ((packed_apply _ _).trans ?_)
  refine (Finset.sum_congr rfl fun t _ => ?_).trans
    (sum_samples fun i => if (X2 m c (ix1 i)).toInt = (j.val : ℤ) then (1 : EReal) else 0).symm
  refine ((stats_apply m c t _).trans (Cert.KernelPay.pay_gcount _ _ _ j)).trans ?_
  refine Finset.sum_congr rfl fun r _ => ?_
  rw [group_tile m c t r]
  exact if_congr (group_word_iff _ j) rfl rfl

end Cert.Bridge

end
-- ==== Proof.LibTakeAlong.lean ====
/-
  A take along the class axis, one column, read at an index.

  `jnp.take_along_axis(x, i, axis = 1)` over an [N × C] array and an [N × 1] column of class numbers is a
  `stablehlo.gather` whose start indices are the [N × 1 × 1] array of those numbers: axis 0 of the operand is a
  BATCHING axis, paired with axis 0 of the start indices (row p of the result reads row p of the operand), axis 1 of
  the operand is collapsed and start-indexed, there is no offset axis, and the index vector lies on axis 2. Entry
  (p, u) of the result is the operand's row p at the column that row p's start index names, read signed and clamped
  into 0 … C − 1.
-/
import Idealize.ShloMosaic.Lib.ValueIdx
import Idealize.ShloMosaic.PureOps.ShapeOps
import Idealize.ShloMosaic.PureOps.Dims

noncomputable section

namespace Cert.Lib

open Idealize.ShloMosaic Idealize.ShloMosaic.ValueIdx

/-- Equal lists read at equal positions give equal entries. -/
theorem getElem_congr_both {β : Type} {l l' : List β} {k k' : Nat} (hl : l = l') (hk : k = k') (h : k < l.length)
    (h' : k' < l'.length) : l[k] = l'[k'] := by
  subst hl; subst hk; rfl

/-- With no offset axis, both axes of an [N × 1] result are batch axes, in order. -/
theorem along_batchDims {N C : Nat} (d : GatherDims ⟨2, ![N, C]⟩ ⟨3, ![N, 1, 1]⟩ ⟨2, ![N, 1]⟩)
    (hoff : d.offsetDims = []) : d.batchDims = [0, 1] := by
  show Shape.kept _ d.offsetDims = _
  rw [hoff]
  rfl

/-- With the index vector on axis 2, the start indices' other axes are 0 and 1, in order. -/
theorem along_siKept {N C : Nat} (d : GatherDims ⟨2, ![N, C]⟩ ⟨3, ![N, 1, 1]⟩ ⟨2, ![N, 1]⟩)
    (hivd : d.indexVectorDim = 2) : d.siKept = [0, 1] := by
  show (List.finRange 3).filter (fun b => decide (b.val ≠ d.indexVectorDim)) = _
  rw [hivd]
  rfl

/-- The coordinate that result index (p, u) gives the start indices' axis 0 is p: axis 0 is the first of the start
    indices' axes other than the index vector's, and the result's first batch axis is its axis 0. -/
theorem along_siCoord0 {N C : Nat} (d : GatherDims ⟨2, ![N, C]⟩ ⟨3, ![N, 1, 1]⟩ ⟨2, ![N, 1]⟩)
    (hoff : d.offsetDims = []) (hivd : d.indexVectorDim = 2) (p : Fin N) (u : Fin 1)
    (hb : (0 : Fin 3) ∈ d.siKept) : (d.siCoord (ix2 p u) 0 hb).val = p.val := by
  unfold GatherDims.siCoord
  simp only [Fin.val_cast]
  have hk : d.siKept.idxOf (0 : Fin 3) = 0 := by rw [along_siKept d hivd]; rfl
  have e : ∀ h, d.batchDims[d.siKept.idxOf (0 : Fin 3)]'h = (0 : Fin 2) := fun h =>
    getElem_congr_both (l' := [0, 1]) (k' := 0) (along_batchDims d hoff) hk h (by simp)
  rw [e]

/-- A TAKE ALONG THE SECOND AXIS, ONE COLUMN. A gather from an [N × C] array at an [N × 1 × 1] array of start indices
    whose axis 0 is the batching axis paired with the operand's axis 0, the operand's axis 1 collapsed and
    start-indexed, no offset axis, the index vector on axis 2, slices of one element: entry (p, u) is the operand's
    row p at column (row p's start index read SIGNED and CLAMPED into 0 … C − 1). -/
theorem gather_along_col {α : Type} {N C w : Nat} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (p : Fin N) (u : Fin 1) (hC : 0 < C) :
    Host.gather d x idx (ix2 p u)
      = x (ix2 p ⟨min (idx (ix3 p (0 : Fin 1) (0 : Fin 1))).toInt.toNat (C - 1), by omega⟩) := by
  unfold Host.gather
  congr 1
  funext a
  apply Fin.ext
  match a with
  | ⟨0, _⟩ =>
    -- the batching axis: no start, no offset coordinate; the batching coordinate is the result's row
    have hb0 : (0 : Fin 2) ∈ d.operandBatchingDims := by rw [hob]; exact List.mem_singleton.mpr rfl
    have hk0 : (0 : Fin 2) ∉ d.sKept := by rw [GatherDims.mem_sKept]; exact fun h => h.2 hb0
    show (d.operandIdx (ix2 p u) idx 0).val = p.val
    simp only [GatherDims.operandIdx, GatherDims.start_batching _ _ _ _ hb0, GatherDims.offCoord_eq_zero _ _ _ hk0,
      Nat.add_zero, Nat.zero_add]
    unfold GatherDims.batchCoord
    rw [dif_pos hb0]
    -- the start indices' batching axis paired with the operand's axis 0 is their axis 0
    have hsbAll : ∀ y ∈ d.startIndicesBatchingDims, y = 0 := by
      intro y hy; rw [hsb] at hy; exact List.mem_singleton.1 hy
    have key : ∀ (b : Fin 3) (hb : b ∈ d.siKept), b = 0 → (d.siCoord (ix2 p u) b hb).val = p.val := by
      rintro b hb rfl
      exact along_siCoord0 d hoff hivd p u hb
    exact key _ _ (hsbAll _ (List.getElem_mem _))
  | ⟨1, _⟩ =>
    -- the class axis: the clamped start index; no batching and no offset coordinate
    have hb1 : (1 : Fin 2) ∉ d.operandBatchingDims := by rw [hob]; simp
    have hk1 : (1 : Fin 2) ∉ d.sKept := by
      rw [GatherDims.mem_sKept, hcoll]; exact fun h => h.1 (List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)
    -- the start index of result index (p, u) is read at (p, 0, 0)
    have hsi : ∀ c, d.siIdx (ix2 p u) c = ix3 p (0 : Fin 1) (0 : Fin 1) := by
      intro c
      funext b
      match b with
      | ⟨0, _⟩ =>
        unfold GatherDims.siIdx
        rw [dif_neg (by rw [hivd]; simp)]
        apply Fin.ext
        exact along_siCoord0 d hoff hivd p u _
      | ⟨1, _⟩ => exact Subsingleton.elim (α := Fin 1) _ _
      | ⟨2, _⟩ => exact Subsingleton.elim (α := Fin 1) _ _
    show (d.operandIdx (ix2 p u) idx 1).val = _
    simp only [GatherDims.operandIdx, GatherDims.batchCoord_eq_zero _ _ _ hb1, GatherDims.offCoord_eq_zero _ _ _ hk1,
      Nat.add_zero, GatherDims.start, dif_pos hm]
    rw [hsi, hsl]
    rfl

end Cert.Lib

end
-- ==== Proof.LibScatterGather.lean ====
/-
  A scatter that adds rows into a table, and a take from a vector, read at an index.

  `jax.ops.segment_sum(u, seg, num_segments = N)` over n update rows is a `stablehlo.scatter` with an `add` body whose
  scatter indices are the [n × 1] column of segment numbers: the table's axis 0 is the inserted, scatter-indexed axis
  (and, for a rank-2 table, its axis 1 is the update's one window axis), and the index vector lies on axis 1 of the
  scatter indices. At the extended reals its entry (v, j) is the table's entry plus the sum of the update entries
  (e, j) over the rows e whose segment number, read signed, is v; a row whose number is not a row of the table is
  dropped. `vec[idx]` over a vector of length N and n positions is the `stablehlo.gather` with the same index column,
  the vector's one axis collapsed and start-indexed: entry p is the vector at position p's index read signed and
  clamped into 0 … N − 1.
-/
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

/-- WHERE AN UPDATE LANDS. Update index `j` lands at operand index `i` exactly when on every operand axis the start
    (read signed) plus the window coordinate is `i`'s coordinate; a sum outside the operand lands nowhere. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

/-- A rank-1 index set is its one coordinate's range. -/
def idxFin1 {n : Nat} : (⟨1, ![n]⟩ : Shape).Idx ≃ Fin n where
  toFun i := i 0
  invFun a := ix1 a
  left_inv i := (eq_ix1 i).symm
  right_inv _ := rfl

/-- The start of update (e, c)'s window on the table's axis 0 is row e's scatter index read signed. -/
theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by
  -- the update's axis 1 is its window axis, so each of its scatter axes is axis 0
  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- Update (e, c) lands at entry (v, j) of the table exactly when row e's scatter index, read signed, is v and its
    column c is j: axis 0 of the table is inserted (start only), axis 1 carries the window coordinate (no start). -/
theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

/-- ROWS ADDED INTO A TABLE. An accumulating scatter into an [N × C] table of n update rows [n × C] at an [n × 1]
    column of row numbers (`huw` … `hivd`: the printed dimension numbers, each by `rfl`), at the extended reals:
    entry (v, j) is the table's plus the sum over the update rows e whose number, read signed, is v, of the update's
    entry (e, j). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  -- the filtered sum as a sum over all update entries, row by row
  rw [Finset.sum_filter, sum_idx2]
  refine Finset.sum_congr rfl (fun e _ => ?_)
  by_cases hc : (idx (ix2 e (0 : Fin 1))).toInt = (v.val : ℤ)
  · -- a row whose number is v gives its entry in column j and nothing else
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · -- a row whose number is not v gives nothing
    rw [if_neg hc]
    apply Finset.sum_eq_zero
    intro c _
    rw [if_neg (fun h => hc ((rows_lands d huw hiw hsd hivd idx e c v j).1 h).1)]

/-- The start of update e's window on the vector's axis is its scatter index read signed. -/
theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by
  -- the update has one axis, so each of its scatter axes is axis 0
  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

/-- Update e lands at position v of the vector exactly when its scatter index, read signed, is v. -/
theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  -- the vector's axis is inserted: no window coordinate on it
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

/-- ENTRIES ADDED INTO A VECTOR. The same for a vector of length N and n scalar updates (no window axis). -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  -- the update indices are the numbers of the updates
  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

/-- A TAKE FROM A VECTOR. A gather from a vector of length N at an [n × 1] column of start indices, the vector's
    axis collapsed and start-indexed, no offset and no batching axes, the index vector on axis 1: entry p is the
    vector at position p's start index read SIGNED and CLAMPED into 0 … N − 1. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  -- the result has one axis, so each of its batch axes is axis 0
  have hbatchAll : ∀ y ∈ d.batchDims, y = 0 := by
    intro y _
    apply Fin.ext
    have := y.isLt
    change y.val < 1 at this
    show y.val = 0
    omega
  have hb : ∀ a : Fin 1, a ∉ d.operandBatchingDims := by intro a; rw [hob]; exact List.not_mem_nil
  funext a
  apply Fin.ext
  match a with
  | ⟨0, _⟩ =>
    -- the vector's one axis: the clamped start index; no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show (d.operandIdx (ix1 p) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 1) d.startIndexMap = 0
      rw [hsim]; simp

end Cert.Lib

end
-- ==== Proof.RefSide.lean ====
/-
  The reference program's stages, read at an index, over the extended reals.

  The reference computes each sample's loss by indexing: it takes the log-softmax of the logits (the row's maximum M'
  taken out: (f k - M') - log (0 + sum of exp (f k' - M'))), picks from row i the entry at the sample's class number
  (a take along the class axis, guarded by a range mask that is all ones when every class number is in 0 … 999),
  and negates it. Over real logits and class numbers in range that is the sample's loss. The total loss is the sum
  of these over the samples; the eight groups' summed losses and counts are two accumulating scatters of the losses
  and of ones at the samples' group numbers; the result is the shared last stretch of those three.
-/
import proofs.«405981_j77558519431603_3_alg».proof.Proof.RefReadP
import proofs.«405981_j77558519431603_3_alg».proof.Proof.Spec
import proofs.«405981_j77558519431603_3_alg».proof.Proof.LibTakeAlong
import proofs.«405981_j77558519431603_3_alg».proof.Proof.LibScatterGather
import proofs.«405981_j77558519431603_3_alg».proof.Proof.LibKeepdims
import Idealize.ShloMosaic.PureOps.Reduce
import Idealize.ShloMosaic.PureOps.Ideal
import Idealize.ShloMosaic.PureOps.Ideal.Laws
import Idealize.ShloMosaic.Lib.IdealHost
import Idealize.ShloMosaic.Lib.ValueIdx

noncomputable section

namespace Cert.RefSide

open Idealize.ShloMosaic Idealize.ShloMosaic.ValueIdx Cert.ReferenceIdeal Cert.ReferenceIdeal.Gen Cert.ReferenceIdeal.ReadP
  Cert.Fair

/-! ## Words and flags -/

/-- A select on a set flag takes its first value. -/
theorem select_one {α : Type} (a b : α) : Scalar.select 1#1 a b = a := by
  unfold Scalar.select; exact if_pos rfl

/-- A select on a cleared flag takes its second value. -/
theorem select_zero {α : Type} (a b : α) : Scalar.select 0#1 a b = b := by
  unfold Scalar.select; exact if_neg (by decide)

/-- A word that reads signed as a non-negative number is not below zero. -/
theorem slt_zero_of_nonneg (t : BitVec 32) (h0 : 0 ≤ t.toInt) : IntOp.cmpi .slt t 0#32 = 0#1 := by
  have h : t.slt 0#32 = false := by
    simp only [BitVec.slt, BitVec.toInt_zero]
    exact decide_eq_false (by omega)
  unfold IntOp.cmpi
  simp only [h]
  rfl

/-- A word that reads signed as a non-negative number is at least zero. -/
theorem sge_zero_of_nonneg (t : BitVec 32) (h0 : 0 ≤ t.toInt) : IntOp.cmpi .sge t 0#32 = 1#1 := by
  have h : (0#32 : BitVec 32).sle t = true := by
    simp only [BitVec.sle, BitVec.toInt_zero]
    exact decide_eq_true h0
  unfold IntOp.cmpi
  simp only [h]
  rfl

/-- A word that reads signed as a number below 1000 is at most 999. -/
theorem sle_999_of_lt (t : BitVec 32) (h1 : t.toInt < 1000) : IntOp.cmpi .sle t 999#32 = 1#1 := by
  have e : (999#32 : BitVec 32).toInt = 999 := by decide
  have h : t.sle 999#32 = true := by
    simp only [BitVec.sle, e]
    exact decide_eq_true (by omega)
  unfold IntOp.cmpi
  simp only [h]
  rfl

/-- A fold by `and` from a set flag over set flags is set. -/
theorem fold_andi_ones {ι : Type} (S : Finset ι) (f : ι → BitVec 1) (b : BitVec 1) (hb : b = 1#1) (hf : ∀ i, f i = 1#1) :
    S.fold IntOp.andi b f = 1#1 := by
  induction S using Finset.cons_induction with
  | empty => rw [Finset.fold_empty]; exact hb
  | cons a S ha ih => rw [Finset.fold_cons, ih, hf a]; rfl

/-! ## The whole result, at any float family -/

/-- The whole result is the shared last stretch of the total, the group sums and the group counts. -/
theorem result_eq {F : FTy → Type} [FloatOps F] (x0 : (⟨S262144x1000, .f32⟩ : BufTy).Contents (Elt F))
    (x1 x2 : (⟨S262144, .i32⟩ : BufTy).Contents (Elt F)) :
    val_main_v27 (F := F) x0 x1 x2
      = Cert.Fair.tail bcast_S_S8 reducesTo_S8_S_d0 h_S_ (val_main_v5 (F := F) x0 x1) (val_main_v9 (F := F) x0 x1 x2)
          (val_main_v13 (F := F) x2) := by
  rfl

variable (x0 : (⟨S262144x1000, .f32⟩ : BufTy).Contents (Elt Ideal)) (x1 x2 : (⟨S262144, .i32⟩ : BufTy).Contents (Elt Ideal))

/-- Row i of the logits. -/
abbrev row (i : Fin 262144) : Fin 1000 → EReal := fun k => x0 (ix2 i k)

/-! ## The class numbers, the range mask and the take -/

/-- Over class numbers that are not negative the wrapped index column is the class numbers' column. -/
theorem col_apply (ht : ∀ p, 0 ≤ (x1 p : BitVec 32).toInt ∧ (x1 p : BitVec 32).toInt < 1000) (q : S262144x1.Idx) :
    val_main_call1_v4 (F := Ideal) x1 q = x1 (idx_main_v1 q) := by
  rw [val_main_call1_v4_apply, val_main_call1_v1_apply, val_main_v1_apply, val_main_call1_v0_apply, val_main_call1_c_apply,
    slt_zero_of_nonneg _ (ht _).1, select_zero]

/-- Over class numbers in range every entry of the range test is set. -/
theorem inrange_apply (ht : ∀ p, 0 ≤ (x1 p : BitVec 32).toInt ∧ (x1 p : BitVec 32).toInt < 1000) (q : S262144x1x1.Idx) :
    val_main_call1_v11 (F := Ideal) x1 q = 1#1 := by
  rw [val_main_call1_v11_apply, val_main_call1_v7_apply, val_main_call1_v10_apply, val_main_call1_v5_apply,
    val_main_call1_v6_apply, val_main_call1_c_2_apply, val_main_call1_v9_apply, val_main_call1_v8_apply,
    val_main_call1_c_1_apply, col_apply x1 ht, sge_zero_of_nonneg _ (ht _).1, sle_999_of_lt _ (ht _).2]
  rfl

/-- Over class numbers in range the range mask is set everywhere. -/
theorem mask_apply (ht : ∀ p, 0 ≤ (x1 p : BitVec 32).toInt ∧ (x1 p : BitVec 32).toInt < 1000) (q : S262144x1.Idx) :
    val_main_call1_v12 (F := Ideal) x1 q = 1#1 := by
  unfold val_main_call1_v12
  rw [Host.reduce_eq_fold]
  exact fold_andi_ones _ _ _ rfl (inrange_apply x1 ht)

/-! ## The log-softmax at an index -/

/-- The row maximum the reference takes out of row i: the maximum of minus infinity and the row's maximum. -/
abbrev shift (i : Fin 262144) : EReal := max (Ideal.ofBits .f32 0xFF800000#32) (rowMax (row x0 i))

/-- The reduce by maximum over the class axis, at row i, is the row's maximum. -/
theorem rowmax_apply (i : Fin 262144) : val_main_call0_v0 (F := Ideal) x0 (ix1 i) = rowMax (row x0 i) := by
  unfold val_main_call0_v0
  refine (Cert.Keepdims.hostReduce_max_rows (φ := .f32) x0 (val_main_call0_cst (F := Ideal))
    reducesTo_S262144x1000_S262144_d1 (by decide) h_S_ i).trans ?_
  rfl

/-- The value taken out of row i. -/
theorem shift_apply (i : Fin 262144) : val_main_call0_v2 (F := Ideal) x0 (ix1 i) = shift x0 i := by
  rw [val_main_call0_v2_apply, val_main_call0_v1_apply, val_main_call0_cst_0_apply, rowmax_apply]
  rfl

/-- The shifted logit at (i, k). -/
theorem shifted_apply (i : Fin 262144) (k : Fin 1000) :
    val_main_call0_v5 (F := Ideal) x0 (ix2 i k) = x0 (ix2 i k) - shift x0 i := by
  have e : idx_main_call0_v3 (idx_main_call0_v4 (ix2 i k)) = ix1 i :=
    funext fun a => Fin.ext (by match a with | ⟨0, _⟩ => rfl)
  rw [val_main_call0_v5_apply, val_main_call0_v4_apply, val_main_call0_v3_apply, e, shift_apply]
  rfl

/-- The sum of the exponentials of row i's shifted logits, from the zero word. -/
theorem sumexp_apply (i : Fin 262144) :
    val_main_call0_v7 (F := Ideal) x0 (ix1 i)
      = Ideal.ofBits .f32 0x00000000#32 + ∑ k : Fin 1000, Ideal.exp (x0 (ix2 i k) - shift x0 i) := by
  rw [val_main_call0_v7_apply]
  refine congrArg₂ (· + ·) rfl (Finset.sum_congr rfl fun k _ => ?_)
  have e : idx_main_call0_v7 (ix1 i) k = ix2 i k :=
    funext fun a => Fin.ext (by match a with | ⟨0, _⟩ => rfl | ⟨1, _⟩ => rfl)
  rw [val_main_call0_v6_apply, e, shifted_apply]
  rfl

/-- The log-softmax at (i, k): the shifted logit less the logarithm of the sum of the row's shifted exponentials. -/
theorem logsoftmax_apply (i : Fin 262144) (k : Fin 1000) :
    val_main_v0 (F := Ideal) x0 (ix2 i k)
      = (x0 (ix2 i k) - shift x0 i)
          - Ideal.log (Ideal.ofBits .f32 0x00000000#32 + ∑ k' : Fin 1000, Ideal.exp (x0 (ix2 i k') - shift x0 i)) := by
  have e : idx_main_call0_v8 (idx_main_call0_v10 (ix2 i k)) = ix1 i :=
    funext fun a => Fin.ext (by match a with | ⟨0, _⟩ => rfl)
  rw [val_main_v0_apply, shifted_apply, val_main_call0_v10_apply, val_main_call0_v9_apply, val_main_call0_v8_apply, e,
    sumexp_apply]
  rfl

/-! ## One sample's loss -/

/-- Over class numbers in range, the start index the take reads for row i is the sample's class number. -/
theorem start_apply (ht : ∀ p, 0 ≤ (x1 p : BitVec 32).toInt ∧ (x1 p : BitVec 32).toInt < 1000) (i : Fin 262144) :
    val_main_call1_v5 (F := Ideal) x1 (ix3 i (0 : Fin 1) (0 : Fin 1)) = x1 (ix1 i) := by
  have e : idx_main_v1 (idx_main_call1_v5 (ix3 i (0 : Fin 1) (0 : Fin 1))) = ix1 i :=
    funext fun a => Fin.ext (by
      match a with
      | ⟨0, _⟩ =>
        show ((i.val * 1 + 0) * 1 + 0) / 1 = i.val
        omega)
  rw [val_main_call1_v5_apply, col_apply x1 ht, e]

/-- Over class numbers in range, the take at (i, u) is the log-softmax of row i at the sample's class number. -/
theorem gathered_apply (ht : ∀ p, 0 ≤ (x1 p : BitVec 32).toInt ∧ (x1 p : BitVec 32).toInt < 1000) (i : Fin 262144)
    (u : Fin 1) (k0 : Fin 1000) (hk0 : k0.val = (x1 (ix1 i) : BitVec 32).toInt.toNat) :
    val_main_call1_v13 (F := Ideal) x0 x1 (ix2 i u) = val_main_v0 (F := Ideal) x0 (ix2 i k0) := by
  unfold val_main_call1_v13
  refine (Cert.Lib.gather_along_col gather_S262144x1000_S262144x1x1_S262144x1_n_1_0_0_1_2_11 rfl rfl rfl rfl rfl rfl
    (val_main_v0 (F := Ideal) x0) (val_main_call1_v5 (F := Ideal) x1) i u (by norm_num)).trans ?_
  refine congrArg (val_main_v0 (F := Ideal) x0) (congrArg (ix2 i) (Fin.ext ?_))
  show min (val_main_call1_v5 (F := Ideal) x1 (ix3 i (0 : Fin 1) (0 : Fin 1))).toInt.toNat (1000 - 1) = k0.val
  rw [start_apply x1 ht, hk0]
  have := ht (ix1 i)
  omega

/-- Over real logits and targets in range, the reference's negated gathered log-softmax at sample i is the sample's
    loss. -/
theorem loss_apply (hx : ∀ i, ∃ r : ℝ, x0 i = (r : EReal))
    (ht : ∀ p, 0 ≤ (x1 p : BitVec 32).toInt ∧ (x1 p : BitVec 32).toInt < 1000) (i : Fin 262144) :
    val_main_v4 (F := Ideal) x0 x1 (ix1 i) = sampleLoss (row x0 i) (x1 (ix1 i)) := by
  obtain ⟨h0, h1⟩ := ht (ix1 i)
  have hk : (x1 (ix1 i) : BitVec 32).toInt.toNat < 1000 := by omega
  have e : idx_main_v3 (ix1 i) = ix2 i (0 : Fin 1) :=
    funext fun a => Fin.ext (by
      match a with
      | ⟨0, _⟩ =>
        show i.val / 1 = i.val
        omega
      | ⟨1, _⟩ => rfl)
  rw [val_main_v4_apply, val_main_v3_apply, val_main_v2_apply, mask_apply x1 ht, select_one, e,
    gathered_apply x0 x1 ht i 0 ⟨_, hk⟩ rfl, logsoftmax_apply]
  exact sampleLoss_of_index (row x0 i) (fun k => hx _) (x1 (ix1 i)) h0 h1 ⟨_, hk⟩ rfl

/-! ## The total and the groups -/

/-- The total loss. -/
theorem total_eq (hx : ∀ i, ∃ r : ℝ, x0 i = (r : EReal))
    (ht : ∀ p, 0 ≤ (x1 p : BitVec 32).toInt ∧ (x1 p : BitVec 32).toInt < 1000) (j : S_.Idx) :
    val_main_v5 (F := Ideal) x0 x1 j = ∑ i : Fin 262144, sampleLoss (row x0 i) (x1 (ix1 i)) := by
  rw [val_main_v5_apply, val_main_cst_apply, Ideal.ofBits_def, Ideal.ofBits_zero_f32, zero_add]
  refine Fintype.sum_equiv Cert.Lib.idxFin1 _ _ (fun q => ?_)
  obtain ⟨e, rfl⟩ : ∃ e : Fin 262144, q = ix1 e := ⟨q 0, eq_ix1 q⟩
  change _ = sampleLoss (row x0 e) (x1 (ix1 e))
  exact loss_apply x0 x1 hx ht e

/-- Group j's summed loss: over the samples whose group word reads signed as j. -/
theorem gsum_eq (hx : ∀ i, ∃ r : ℝ, x0 i = (r : EReal))
    (ht : ∀ p, 0 ≤ (x1 p : BitVec 32).toInt ∧ (x1 p : BitVec 32).toInt < 1000) (j : Fin 8) :
    val_main_v9 (F := Ideal) x0 x1 x2 (ix1 j)
      = ∑ i : Fin 262144, if (x2 (ix1 i) : BitVec 32).toInt = (j.val : ℤ) then sampleLoss (row x0 i) (x1 (ix1 i)) else 0 := by
  unfold val_main_v9
  refine (Cert.Lib.scatterAdd_vec scatter_S8_S262144x1_S262144_n_0_0_1 rfl rfl rfl rfl (val_main_v7 (F := Ideal))
    (val_main_v8 (F := Ideal) x2) (val_main_v4 (F := Ideal) x0 x1) j).trans ?_
  rw [val_main_v7_apply, val_main_cst_1_apply, Ideal.ofBits_def, Ideal.ofBits_zero_f32, zero_add]
  refine Finset.sum_congr rfl fun e _ => ?_
  have he : idx_main_v8 (ix2 e (0 : Fin 1)) = ix1 e := funext fun a => Fin.ext (by match a with | ⟨0, _⟩ => rfl)
  rw [val_main_v8_apply, he, loss_apply x0 x1 hx ht e]

/-- Group j's count. -/
theorem gcount_eq (j : Fin 8) :
    val_main_v13 (F := Ideal) x2 (ix1 j)
      = ∑ i : Fin 262144, if (x2 (ix1 i) : BitVec 32).toInt = (j.val : ℤ) then (1 : EReal) else 0 := by
  unfold val_main_v13
  refine (Cert.Lib.scatterAdd_vec scatter_S8_S262144x1_S262144_n_0_0_1 rfl rfl rfl rfl (val_main_v11 (F := Ideal))
    (val_main_v12 (F := Ideal) x2) (val_main_v10 (F := Ideal)) j).trans ?_
  rw [val_main_v11_apply, val_main_cst_3_apply, Ideal.ofBits_def, Ideal.ofBits_zero_f32, zero_add]
  refine Finset.sum_congr rfl fun e _ => ?_
  have he : idx_main_v12 (ix2 e (0 : Fin 1)) = ix1 e := funext fun a => Fin.ext (by match a with | ⟨0, _⟩ => rfl)
  rw [val_main_v12_apply, he, val_main_v10_apply, val_main_cst_2_apply, Ideal.ofBits_def, Ideal.ofBits_one_f32]

end Cert.RefSide

end
-- ==== Proof.lean ====
/-
  Cross-entropy with a group-fairness penalty: the tiled kernel against the plain reference, over the extended reals.

  Both programs take 262144 rows of 1000 logits, a target class and a group number (one of eight) per row, and return
  the mean cross-entropy plus a tenth of sqrt (variance of the eight groups' mean losses + 1e-8).

  The reference takes log-softmax of every row, picks the target's entry by indexing, negates, and sums: the total
  over all rows, and per group by a scatter-add at the group numbers (with a scatter-add of ones for the counts).
  The kernel walks 256 tiles of 1024 rows; per tile it forms each row's loss as
  (max + log (sum of exp (x - max))) - (the target's logit, picked by a one-hot mask and a sum), then the tile's total,
  its eight group sums (a one-hot of the group number times the loss, summed over the rows) and eight group counts,
  stored as one row of 128 statistics; the host adds the 256 rows and slices the three pieces out. From there both
  programs run the same last stretch.

  Why they agree. Under the precondition every logit is a real number and every target is a class number in
  0 … 999. Then the row maximum and the indexed logit are real, and -((x_t - M) - L) = (M + L) - x_t whatever the
  logarithm L is; the one-hot sum over the classes is the logit at the target; a row's group word equals the word of
  j exactly when it reads signed as j, so the kernel's one-hot and the reference's scatter pick the same rows (a group
  number outside 0 … 7 is dropped by both); and a sum over 256 tiles of 1024 rows is the sum over the 262144 rows,
  addition of extended reals being commutative and associative. The target's range is needed: the reference wraps a
  negative target and fills outside -1000 … 999, while the mask then selects nothing.

  The modules: Spec (the pure functions and laws), PreFacts (what the precondition says), KernelValue and KernelBlocks
  (the kernel's run read off its frame: the statistics array, the host tail, the tiles as rows of the arguments),
  KernelPay (the body's stored row, lane by lane), Bridge (the three pieces as sums over all rows), RefSide (the
  reference's stages at an index), RefRunP and RefReadP (the reference's run and stages), LibTakeAlong, LibScatterGather,
  LibKeepdims (general index lemmas). Here: the three frames and the two runs side by side.
-/
import proofs.«405981_j77558519431603_3_alg».proof.Defs
import proofs.«405981_j77558519431603_3_alg».proof.Proof.Gen.Kernel
import proofs.«405981_j77558519431603_3_alg».proof.Proof.Gen.Kernel.Skeleton
import proofs.«405981_j77558519431603_3_alg».proof.Proof.Gen.Kernel.Launch
import proofs.«405981_j77558519431603_3_alg».proof.Proof.Gen.Kernel.Points
import proofs.«405981_j77558519431603_3_alg».proof.Proof.Gen.Kernel.Frame
import proofs.«405981_j77558519431603_3_alg».proof.Proof.Gen.KernelIdeal
import proofs.«405981_j77558519431603_3_alg».proof.Proof.Gen.KernelIdeal.Skeleton
import proofs.«405981_j77558519431603_3_alg».proof.Proof.Gen.KernelIdeal.Launch
import proofs.«405981_j77558519431603_3_alg».proof.Proof.Gen.KernelIdeal.Points
import proofs.«405981_j77558519431603_3_alg».proof.Proof.Gen.KernelIdeal.Frame
import proofs.«405981_j77558519431603_3_alg».proof.Proof.Gen.ReferenceIdeal
import proofs.«405981_j77558519431603_3_alg».proof.Proof.Gen.Pre_finite_inputs
import proofs.«405981_j77558519431603_3_alg».proof.Proof.Spec
import proofs.«405981_j77558519431603_3_alg».proof.Proof.PreFacts
import proofs.«405981_j77558519431603_3_alg».proof.Proof.KernelValue
import proofs.«405981_j77558519431603_3_alg».proof.Proof.KernelBlocks
import proofs.«405981_j77558519431603_3_alg».proof.Proof.KernelPay
import proofs.«405981_j77558519431603_3_alg».proof.Proof.Bridge
import proofs.«405981_j77558519431603_3_alg».proof.Proof.RefReadP
import proofs.«405981_j77558519431603_3_alg».proof.Proof.RefRunP
import proofs.«405981_j77558519431603_3_alg».proof.Proof.RefSide
import Idealize.ShloMosaic.Adequacy
import Idealize.ShloMosaic.Init

set_option maxRecDepth 16384

noncomputable section

namespace Cert.Proof

open Idealize.ShloMosaic Idealize.SL.Sem Idealize.ShloMosaic.ValueIdx

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-! ## The two results are one number -/

/-- The kernel's result from its statistics array is the reference's result term of the same arguments, whenever
    the logits are real and the targets are class numbers. -/
theorem results_agree (m : (ℓ : Loc Cert.KernelIdeal.nD Cert.KernelIdeal.τ Cert.KernelIdeal.sig) → Buf (Elt Ideal) ℓ)
    (c : Dev Cert.KernelIdeal.nD)
    (hx : ∀ i, ∃ r : ℝ, Cert.Bridge.X0 m c i = (r : EReal))
    (ht : ∀ p, 0 ≤ (Cert.Bridge.X1 m c p).toInt ∧ (Cert.Bridge.X1 m c p).toInt < 1000) :
    Cert.ReferenceIdeal.ReadP.val_main_v27 (F := Ideal) (Cert.Bridge.X0 m c) (Cert.Bridge.X1 m c) (Cert.Bridge.X2 m c)
      = Cert.KernelIdeal.Hand.resultOf (Cert.KernelIdeal.Hand.stats m c) := by
  rw [Cert.RefSide.result_eq]
  unfold Cert.KernelIdeal.Hand.resultOf
  have e1 : Cert.ReferenceIdeal.ReadP.val_main_v5 (F := Ideal) (Cert.Bridge.X0 m c) (Cert.Bridge.X1 m c)
      = Cert.KernelIdeal.Hand.totalOf (Cert.KernelIdeal.Hand.stats m c) := by
    funext j
    rw [Cert.Bridge.total_apply m c j]
    exact Cert.RefSide.total_eq (Cert.Bridge.X0 m c) (Cert.Bridge.X1 m c) hx ht j
  have e2 : Cert.ReferenceIdeal.ReadP.val_main_v9 (F := Ideal) (Cert.Bridge.X0 m c) (Cert.Bridge.X1 m c) (Cert.Bridge.X2 m c)
      = Cert.KernelIdeal.Hand.gsumOf (Cert.KernelIdeal.Hand.stats m c) := by
    funext j
    obtain ⟨j0, rfl⟩ : ∃ j0 : Fin 8, j = ix1 j0 := ⟨j 0, eq_ix1 j⟩
    rw [Cert.Bridge.gsum_apply m c j0]
    exact Cert.RefSide.gsum_eq (Cert.Bridge.X0 m c) (Cert.Bridge.X1 m c) (Cert.Bridge.X2 m c) hx ht j0
  have e3 : Cert.ReferenceIdeal.ReadP.val_main_v13 (F := Ideal) (Cert.Bridge.X2 m c)
      = Cert.KernelIdeal.Hand.gcountOf (Cert.KernelIdeal.Hand.stats m c) := by
    funext j
    obtain ⟨j0, rfl⟩ : ∃ j0 : Fin 8, j = ix1 j0 := ⟨j 0, eq_ix1 j⟩
    rw [Cert.Bridge.gcount_apply m c j0]
    exact Cert.RefSide.gcount_eq (Cert.Bridge.X2 m c) j0
  rw [e1, e2, e3]

/-! ## The claims -/

/-- The ideal pass rewrote nothing. -/
theorem preserves : Cert.preserves_Kernel_KernelIdeal := trivial

/-- The two runs side by side: the kernel's result is the shared last stretch of its statistics array's three pieces,
    the reference's the same stretch of its total, group sums and group counts; under the precondition the pieces are
    the same sums over all rows. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) (hPre_finite_inputs := hPre) := by
  intro m ρ m' ρ' hpre hagree
  refine ⟨fun c => Cert.KernelIdeal.Hand.resultOf (Cert.KernelIdeal.Hand.stats m c),
    Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ValueP.val_main_v27_eq, (hagree c).1, (hagree c).2.1, (hagree c).2.2]
  exact results_agree m c
    (fun i => Cert.PreFacts.logits_real _ _ _ (hpre c) i)
    (fun p => Cert.PreFacts.targets_range _ _ _ (hpre c) p)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
